-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v67)) (v2 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_v69) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S256x64 : Shape := ⟨2, ![256, 64]⟩
abbrev S64x1 : Shape := ⟨2, ![64, 1]⟩
abbrev S1 : Shape := ⟨1, ![1]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S256x64 : S_.BroadcastsInDim S256x64 (![] : Fin 0 → Fin S256x64.rank)
  reducesTo_S256x64_S_d0_1 : S256x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg7 : FVec F S64x1 .f32) (main_arg8 : FVec F S1 .f32) (main_arg9 : IVec S2x800000 32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg9 main_v44
  let main_c_17 : IVec S_ 32 := constantI S_ 32 50000#32
  let main_v46 : IVec S2x800000 32 := broadcastInDim S2x800000 ![] bcast_S_S2x800000 main_c_17
  let main_v47 : IVec S2x800000 1 := cmpi .slt main_arg9 main_v46
  let main_v48 : IVec S2x800000 1 := andi main_v45 main_v47
  let main_c_18 : IVec S_ 1 := constantI S_ 1 1#1
  let main_v49 : IVec S_ 1 := (fun x v => Host.reduce IntOp.andi x v reducesTo_S2x800000_S_d0_1 h_S_) main_v48 main_c_18
  let main_v50 : IVec S_ 1 := andi main_v43 main_v49
  main_v50

def fn_part1 {F : FTy → Type} [FloatOps F] (main_arg4 : FVec F S64 .f32) (main_arg5 : FVec F S256x64 .f32) (main_arg6 : FVec F S64 .f32) (main_arg7 : FVec F S64x1 .f32) (main_arg8 : FVec F S1 .f32) (main_arg9 : IVec S2x800000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S128x64 .f32) (main_arg2 : FVec F S64 .f32) (main_arg3 : FVec F S64x64 .f32) (main_arg4 : FVec F S64 .f32) (main_arg5 : FVec F S256x64 .f32) (main_arg6 : FVec F S64 .f32) (main_arg7 : FVec F S64x1 .f32) (main_arg8 : FVec F S1 .f32) (main_arg9 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S256x64 : Shape := ⟨2, ![256, 64]⟩
abbrev S64x1 : Shape := ⟨2, ![64, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S1x1 : Shape := ⟨2, ![1, 1]⟩
abbrev S806400x64 : Shape := ⟨2, ![806400, 64]⟩
abbrev S1x806400 : Shape := ⟨2, ![1, 806400]⟩
abbrev S19200x64 : Shape := ⟨2, ![19200, 64]⟩
abbrev S1x19200 : Shape := ⟨2, ![1, 19200]⟩
abbrev S19200 : Shape := ⟨1, ![19200]⟩

abbrev nBuf : Space → Nat
  | .hbm => 142
  | .vmem => 15
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S64x64, .f32⟩
  | 4 => ⟨S64, .f32⟩
  | 5 => ⟨S256x64, .f32⟩
  | 6 => ⟨S64, .f32⟩
  | 7 => ⟨S64x1, .f32⟩
  | 8 => ⟨S1, .f32⟩
  | 9 => ⟨S2x800000, .i32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S50000x128, .f32⟩
  | 39 => ⟨S50000x128, .f32⟩
  | 40 => ⟨S50000x64, .f32⟩
  | 41 => ⟨S1x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000x64, .f32⟩
  | 61 => ⟨S50000x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S1x800000, .i32⟩
  | 71 => ⟨S800000, .i32⟩
  | 72 => ⟨S1x800000, .i32⟩
  | 73 => ⟨S800000, .i32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S1, .i32⟩
  | 83 => ⟨S_, .i32⟩
  | 84 => ⟨S800000x1, .i32⟩
  | 85 => ⟨S800000x1, .i1⟩
  | 86 => ⟨S1x1, .i32⟩
  | 87 => ⟨S800000x1, .i32⟩
  | 88 => ⟨S800000x1, .i1⟩
  | 89 => ⟨S800000x1, .i1⟩
  | 90 => ⟨S_, .i1⟩
  | 91 => ⟨S800000, .i1⟩
  | 92 => ⟨S800000x64, .f32⟩
  | 93 => ⟨S800000x64, .i1⟩
  | 94 => ⟨S_, .f32⟩
  | 95 => ⟨S800000x64, .f32⟩
  | 96 => ⟨S800000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S1, .i32⟩
  | 106 => ⟨S_, .i32⟩
  | 107 => ⟨S800000x1, .i32⟩
  | 108 => ⟨S800000x1, .i1⟩
  | 109 => ⟨S1x1, .i32⟩
  | 110 => ⟨S800000x1, .i32⟩
  | 111 => ⟨S800000x1, .i1⟩
  | 112 => ⟨S800000x1, .i1⟩
  | 113 => ⟨S_, .i1⟩
  | 114 => ⟨S800000, .i1⟩
  | 115 => ⟨S800000x64, .f32⟩
  | 116 => ⟨S800000x64, .i1⟩
  | 117 => ⟨S_, .f32⟩
  | 118 => ⟨S800000x64, .f32⟩
  | 119 => ⟨S800000x64, .f32⟩
  | 120 => ⟨S64x64, .f32⟩
  | 121 => ⟨S64x64, .bf16⟩
  | 122 => ⟨S64x64, .f32⟩
  | 123 => ⟨S64x64, .bf16⟩
  | 124 => ⟨S64x64, .f32⟩
  | 125 => ⟨S64x64, .bf16⟩
  | 126 => ⟨S64x64, .f32⟩
  | 127 => ⟨S64x64, .bf16⟩
  | _ => ⟨S50000x128, .f32⟩

abbrev hbmTy0_1 (i : Nat) : BufTy := match i % 128 with
  | 0 => ⟨S_, .i32⟩
  | 1 => ⟨S_, .f32⟩
  | 2 => ⟨S806400x64, .f32⟩
  | 3 => ⟨S_, .i32⟩
  | 4 => ⟨S_, .f32⟩
  | 5 => ⟨S806400x64, .f32⟩
  | 6 => ⟨S1x64, .f32⟩
  | 7 => ⟨S1x1, .f32⟩
  | 8 => ⟨S1x806400, .f32⟩
  | 9 => ⟨S1x806400, .f32⟩
  | 10 => ⟨S1x800000, .f32⟩
  | 11 => ⟨S800000, .f32⟩
  | 12 => ⟨S1x800000, .f32⟩
  | 13 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S19200x64, .f32⟩
  | .local _ .vmem, ⟨1, _⟩ => ⟨S19200x64, .f32⟩
  | .local _ .vmem, ⟨2, _⟩ => ⟨S19200x64, .f32⟩
  | .local _ .vmem, ⟨3, _⟩ => ⟨S19200x64, .f32⟩
  | .local _ .vmem, ⟨4, _⟩ => ⟨S64x64, .bf16⟩
  | .local _ .vmem, ⟨5, _⟩ => ⟨S64x64, .bf16⟩
  | .local _ .vmem, ⟨6, _⟩ => ⟨S64x64, .bf16⟩
  | .local _ .vmem, ⟨7, _⟩ => ⟨S64x64, .bf16⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S1x19200, .f32⟩
  | .local _ .vmem, ⟨12, _⟩ => ⟨S1x19200, .f32⟩
  | .local _ .vmem, ⟨13, _⟩ => ⟨S1x19200, .f32⟩
  | .local _ .vmem, ⟨14, _⟩ => ⟨S1x19200, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v51 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_c_7 : Ref sig .tc := ⟨.hbm, 128, rfl⟩
abbrev main_call4_v0 : Ref sig .tc := ⟨.hbm, 129, rfl⟩
abbrev main_v61 : Ref sig .tc := ⟨.hbm, 130, rfl⟩
abbrev main_c_8 : Ref sig .tc := ⟨.hbm, 131, rfl⟩
abbrev main_call5_v0 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65_0 : Ref sig .tc := ⟨.hbm, 136, rfl⟩
abbrev main_v65_1 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![42], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S19200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S19200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x19200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x19200 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S256x64_S64x64_0_0 : S256x64.Slices ![0, 0] S64x64
  bitsLt_bf16_f32 : FTy.bits .bf16 < FTy.bits .f32
  slices_S256x64_S64x64_64_0 : S256x64.Slices ![64, 0] S64x64
  slices_S256x64_S64x64_128_0 : S256x64.Slices ![128, 0] S64x64
  slices_S256x64_S64x64_192_0 : S256x64.Slices ![192, 0] S64x64
  pads_S800000x64_S806400x64_064000_000 : S800000x64.Pads (![0, 0] : Fin 2 → Nat) ![6400, 0] ![0, 0] S806400x64
  shapeCasts_S64_S1x64 : S64.ShapeCasts S1x64
  shapeCasts_S1_S1x1 : S1.ShapeCasts S1x1
  inb_S19200x64_S19200x64_0_0 : ∀ a, (![0, 0] : Fin 2 → Nat) a + S19200x64.size a ≤ S19200x64.size a
  h_S19200x64 : 0 < S19200x64.numel
  shapeCasts_S19200x64_S19200x64 : S19200x64.ShapeCasts S19200x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S19200x64 : S1x64.Broadcasts S19200x64
  inb_S64x1_S64x1_0_0 : ∀ a, (![0, 0] : Fin 2 → Nat) a + S64x1.size a ≤ S64x1.size a
  h_S64x1 : 0 < S64x1.numel
  shapeCasts_S64x1_S64 : S64x1.ShapeCasts S64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S19200x64_S19200 : S19200x64.Reduces [1] S19200
  inb_S1x19200_S1x19200_0_0 : ∀ a, (![0, 0] : Fin 2 → Nat) a + S1x19200.size a ≤ S1x19200.size a
  h_S1x19200 : 0 < S1x19200.numel
  shapeCasts_S1x19200_S19200 : S1x19200.ShapeCasts S19200
  shapeCasts_S19200_S1x19200 : S19200.ShapeCasts S1x19200
  slices_S1x806400_S1x800000_0_0 : S1x806400.Slices ![0, 0] S1x800000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S19200x64_S64x64_S19200x64_1_0_0_1_n_n_wf : DotDims.WF S19200x64 S64x64 S19200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S19200x64.size a ≤ S806400x64.size a
  hwx0_0 : ∀ i : grid0.Coords, EltTy.bits .f32 = 32 ∨ (Rect.block (s := S806400x64) S19200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S19200x64.size a ≤ S806400x64.size a
  hwx0_1 : ∀ i : grid0.Coords, EltTy.bits .f32 = 32 ∨ (Rect.block (s := S806400x64) S19200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x19200.size a ≤ S1x806400.size a
  hwx0_9 : ∀ i : grid0.Coords, EltTy.bits .f32 = 32 ∨ (Rect.block (s := S1x806400) S1x19200.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x19200.size a ≤ S1x806400.size a
  hwx0_10 : ∀ i : grid0.Coords, EltTy.bits .f32 = 32 ∨ (Rect.block (s := S1x806400) S1x19200.size (cc0_transform_10 i) (hinb0_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S19200x64_S64x64_S19200x64_1_0_0_1_n_n : DotDims S19200x64 S64x64 S19200x64 where
  lhsContracting := [1]
  rhsContracting := [0]
  lhsNonContracting := [0]
  rhsNonContracting := [1]
  lhsBatch := []
  rhsBatch := []
  wf := dot_S19200x64_S64x64_S19200x64_1_0_0_1_n_n_wf

abbrev win0_0 : Pipeline.Window sig grid0 :=
  Pipeline.Window.ofSpec (Memref.whole main_v61) S19200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S19200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v63) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v64) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v65_0) S1x19200.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v65_1) S1x19200.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S256x64 : Shape := ⟨2, ![256, 64]⟩
abbrev S64x1 : Shape := ⟨2, ![64, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S800000x256 : Shape := ⟨2, ![800000, 256]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S2x800000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | .hbm, ⟨70, _⟩ => ⟨S1x800000, .i32⟩
  | .hbm, ⟨71, _⟩ => ⟨S800000, .i32⟩
  | .hbm, ⟨72, _⟩ => ⟨S1x800000, .i32⟩
  | .hbm, ⟨73, _⟩ => ⟨S800000, .i32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x64, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x64, .f32⟩
  | .hbm, ⟨92, _⟩ => ⟨S800000x64, .f32⟩
  | .hbm, ⟨93, _⟩ => ⟨S800000x64, .f32⟩
  | .hbm, ⟨94, _⟩ => ⟨S800000x64, .f32⟩
  | .hbm, ⟨95, _⟩ => ⟨S800000x256, .f32⟩
  | .hbm, ⟨96, _⟩ => ⟨S800000x64, .f32⟩
  | .hbm, ⟨97, _⟩ => ⟨S1x64, .f32⟩
  | .hbm, ⟨98, _⟩ => ⟨S800000x64, .f32⟩
  | .hbm, ⟨99, _⟩ => ⟨S800000x64, .f32⟩
  | .hbm, ⟨100, _⟩ => ⟨S_, .f32⟩
  | .hbm, ⟨101, _⟩ => ⟨S800000x64, .f32⟩
  | .hbm, ⟨102, _⟩ => ⟨S800000x64, .f32⟩
  | .hbm, ⟨103, _⟩ => ⟨S800000x1, .f32⟩
  | .hbm, ⟨104, _⟩ => ⟨S1x1, .f32⟩
  | .hbm, ⟨105, _⟩ => ⟨S800000x1, .f32⟩
  | .hbm, ⟨106, _⟩ => ⟨S800000x1, .f32⟩
  | .hbm, ⟨107, _⟩ => ⟨S800000, .f32⟩
  | .hbm, ⟨108, _⟩ => ⟨S800000, .f32⟩
  | .hbm, ⟨109, _⟩ => ⟨S800000, .f32⟩
  | .hbm, ⟨110, _⟩ => ⟨S_, .f32⟩
  | .hbm, ⟨111, _⟩ => ⟨S800000, .f32⟩
  | .hbm, ⟨112, _⟩ => ⟨S800000, .f32⟩
  | .hbm, ⟨113, _⟩ => ⟨S_, .f32⟩
  | .hbm, ⟨114, _⟩ => ⟨S800000, .f32⟩
  | .hbm, ⟨115, _⟩ => ⟨S800000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_7 : Ref sig .tc := ⟨.hbm, 74, rfl⟩
abbrev main_v51 : Ref sig .tc := ⟨.hbm, 75, rfl⟩
abbrev main_v52 : Ref sig .tc := ⟨.hbm, 76, rfl⟩
abbrev main_c_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_9 : Ref sig .tc := ⟨.hbm, 83, rfl⟩
abbrev main_v58 : Ref sig .tc := ⟨.hbm, 84, rfl⟩
abbrev main_v59 : Ref sig .tc := ⟨.hbm, 85, rfl⟩
abbrev main_c_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call2_cst : Ref sig .tc := ⟨.hbm, 100, rfl⟩
abbrev main_call2_v0 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_11 : Ref sig .tc := ⟨.hbm, 110, rfl⟩
abbrev main_v81 : Ref sig .tc := ⟨.hbm, 111, rfl⟩
abbrev main_v82 : Ref sig .tc := ⟨.hbm, 112, rfl⟩
abbrev main_cst_12 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  concatenates_S800000x64_S800000x64_S800000x64_S800000x64_S800000x256_d1 : Shape.Concatenates [S800000x64, S800000x64, S800000x64, S800000x64] S800000x256 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S800000x256_S256x64_S800000x64_1_0_0_1_n_n_wf : DotDims.WF S800000x256 S256x64 S800000x64 [1] [0] [0] [1] [] []
  dot_S800000x64_S64x1_S800000x1_1_0_0_1_n_n_wf : DotDims.WF S800000x64 S64x1 S800000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.TakeFill.lean ====
/-
  `jnp.take(H, idx, axis=0)` in its default mode gathers the rows and then overwrites with a fill value every row whose
  (wrapped) index falls outside `[0, 49999]`. When every index is a node id, `0 ≤ idx < 50000`, no row is
  overwritten: the result is the plain gather.
-/
import proofs.«429669_j61100204753370_3_alg».proof.Proof.Gen.KernelIdeal
import Idealize.ShloMosaic.Lib.ReduceAll
import Idealize.ShloMosaic.Lib.ValueIdx
import Idealize.ShloMosaic.Lib.StableHlo.Predicate

noncomputable section

namespace Cert.TakeFill

open Cert.KernelIdeal Cert.KernelIdeal.Facts₀ Cert.KernelIdeal.Facts Idealize.ShloMosaic

/-- jnp's wrap of an index vector: a negative index counts from the end of the 50000 rows. -/
def wrapped (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- The wrapped indices as the gather's column of start indices. -/
def startCol (idx : IVec S800000 32) : IVec S800000x1 32 :=
  broadcastInDim S800000x1 ![0] bcast_S800000_S800000x1_0 (wrapped idx)

/-- Per row: is the wrapped index inside `[0, 49999]`. -/
def inBounds (idx : IVec S800000 32) : IVec S800000 1 :=
  Host.reduce IntOp.andi
    (andi (cmpi .sge (startCol idx) (broadcastInDim S800000x1 ![] bcast_S_S800000x1 (constantI S_ 32 0#32)))
      (cmpi .sle (startCol idx)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- A left fold by `and` from 1 over one-bit words that are all 1 stays 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : IntOp.andi 1#1 (f a) = 1#1 := by rw [h a List.mem_cons_self]; rfl
    rw [List.foldl_cons, ha]
    exact foldl_andi_one f l fun n hn => h n (List.mem_cons_of_mem _ hn)

/-- A word that passes `0 ≤ w` and `w < 50000` as signed comparisons has its unsigned value below 50000: the first test
    clears the sign bit, so the signed value is the unsigned one. -/
theorem toNat_lt_of_range {w : BitVec 32} (h0 : IntOp.cmpi .sge w 0#32 = 1#1) (h1 : IntOp.cmpi .slt w 50000#32 = 1#1) :
    w.toNat < 50000 := by
  have h0' : BitVec.ofBool ((0#32).sle w) = 1#1 := h0
  have h1' : BitVec.ofBool (w.slt 50000#32) = 1#1 := h1
  rw [StableHlo.Predicate.ofBool_eq_one_iff] at h0' h1'
  have a0 : (0#32 : BitVec 32).toInt ≤ w.toInt := by simpa [BitVec.sle] using h0'
  have a1 : w.toInt < (50000#32 : BitVec 32).toInt := by simpa [BitVec.slt] using h1'
  have e0 : (0#32 : BitVec 32).toInt = 0 := by decide
  have e1 : (50000#32 : BitVec 32).toInt = 50000 := by decide
  rw [e0] at a0
  rw [e1] at a1
  have hw := w.isLt
  rw [BitVec.toInt_eq_toNat_cond] at a0 a1
  by_cases hc : 2 * w.toNat < 2 ^ 32
  · rw [if_pos hc] at a1; omega
  · rw [if_neg hc] at a0; omega

/-- A node id is not negative, so jnp's wrap leaves it alone. -/
theorem wrapped_eq (idx : IVec S800000 32)
    (hin : ∀ e, IntOp.cmpi .sge (idx e) 0#32 = 1#1 ∧ IntOp.cmpi .slt (idx e) 50000#32 = 1#1) : wrapped idx = idx := by
  funext e
  have hn := toNat_lt_of_range (hin e).1 (hin e).2
  have hz : IntOp.cmpi .slt (idx e) 0#32 = 0#1 := by
    refine ValueIdx.eq_zero_of_ne_one fun h1 => ?_
    have := (StableHlo.Predicate.slt_iff_toNat (a := idx e) (b := 0#32) (by omega) (by decide)).1 h1
    simp at this
  show Scalar.select (IntOp.cmpi .slt (idx e) 0#32) (IntOp.addi (idx e) 50000#32) (idx e) = idx e
  rw [hz, ValueIdx.select_zero]

/-- So the column of start indices is the index vector itself, laid along the rows. -/
theorem startCol_eq (idx : IVec S800000 32)
    (hin : ∀ e, IntOp.cmpi .sge (idx e) 0#32 = 1#1 ∧ IntOp.cmpi .slt (idx e) 50000#32 = 1#1) :
    startCol idx = broadcastInDim S800000x1 ![0] bcast_S800000_S800000x1_0 idx := by
  unfold startCol
  rw [wrapped_eq idx hin]

/-- A word in `[0, 50000)` passes the two tests of the fill's mask, `0 ≤ w` and `w ≤ 49999`. -/
theorem tests_one {w : BitVec 32} (h0 : IntOp.cmpi .sge w 0#32 = 1#1) (h1 : IntOp.cmpi .slt w 50000#32 = 1#1) :
    IntOp.andi (IntOp.cmpi .sge w 0#32) (IntOp.cmpi .sle w 49999#32) = 1#1 := by
  have hn := toNat_lt_of_range h0 h1
  refine IntOp.andi_eq_one.2 ⟨h0, ?_⟩
  refine (StableHlo.Predicate.sle_iff_toNat (a := w) (b := 49999#32) (by omega) (by decide)).2 ?_
  have : (49999#32 : BitVec 32).toNat = 49999 := by decide
  omega

/-- With every index a node id, every row is in bounds. -/
theorem inBounds_one (idx : IVec S800000 32)
    (hin : ∀ e, IntOp.cmpi .sge (idx e) 0#32 = 1#1 ∧ IntOp.cmpi .slt (idx e) 50000#32 = 1#1) :
    inBounds idx = fun _ => 1#1 := by
  funext e
  -- the reduction at row e is a left fold by `and`, from the constant 1, over the row's one element
  refine (Host.reduce_eq_foldl IntOp.andi _ _ _ _ e).trans ?_
  refine foldl_andi_one _ _ fun n _ => ?_
  -- whichever row the element reads, its start index is a node id
  rw [startCol_eq idx hin]
  exact tests_one (hin _).1 (hin _).2

/-- So the fill never applies: the take is the plain gather of the rows. -/
theorem fill_eq_gather (H : FVec Ideal S50000x64 .f32) (idx : IVec S800000 32)
    (hin : ∀ e, IntOp.cmpi .sge (idx e) 0#32 = 1#1 ∧ IntOp.cmpi .slt (idx e) 50000#32 = 1#1) :
    select (broadcastInDim S800000x64 ![0] bcast_S800000_S800000x64_0 (inBounds idx))
        (Host.gather gather_S50000x64_S800000x1_S800000x64_1_0_n_n_0_1_164 H (startCol idx))
        (broadcastInDim S800000x64 ![] bcast_S_S800000x64 (constant (F := Ideal) S_ .f32 0x7FC00000#32))
      = Host.gather gather_S50000x64_S800000x1_S800000x64_1_0_n_n_0_1_164 H (startCol idx) := by
  funext j
  rw [inBounds_one idx hin]
  -- the mask reads the constant 1 at every row, so the select keeps the gathered value
  exact ValueIdx.select_one _ _

end Cert.TakeFill

end
-- ==== Proof.InRange.lean ====
/-
  What the precondition says of the edge list: every entry of `edge_index` is a node id, `0 ≤ id < 50000`, as the two
  signed comparisons the printed precondition makes of each entry.
-/
import proofs.«429669_j61100204753370_3_alg».proof.Pre_finite_inputs
import Idealize.ShloMosaic.Lib.ReduceAll
import Idealize.ShloMosaic.Lib.ValueIdx

noncomputable section

namespace Cert.InRange

open Cert.Pre_finite_inputs Idealize.ShloMosaic

/-- Under the precondition every entry of the edge list passes both of its range tests. -/
theorem of_pre [Cert.Pre_finite_inputs.Facts] (x0 : FVec Ideal S50000x128 .f32) (x1 : FVec Ideal S128x64 .f32)
    (x2 : FVec Ideal S64 .f32) (x3 : FVec Ideal S64x64 .f32) (x4 : FVec Ideal S64 .f32) (x5 : FVec Ideal S256x64 .f32)
    (x6 : FVec Ideal S64 .f32) (x7 : FVec Ideal S64x1 .f32) (x8 : FVec Ideal S1 .f32) (x9 : IVec S2x800000 32)
    (h : fn (F := Ideal) x0 x1 x2 x3 x4 x5 x6 x7 x8 x9 = fun _ => 1#1) (i : S2x800000.Idx) :
    IntOp.cmpi .sge (x9 i) 0#32 = 1#1 ∧ IntOp.cmpi .slt (x9 i) 50000#32 = 1#1 := by
  -- the precondition's one word, read at the scalar shape's one index
  have e := congrFun h ValueIdx.ix0
  dsimp only [fn, fn_part1, fn_part2] at e
  -- the outermost conjunction: its second operand is the reduction of the edge list's range tests
  have e2 := (IntOp.andi_eq_one.1 e).2
  -- the reduction runs over all axes, so every entry's test came out 1
  haveI : Subsingleton S_.Idx := ⟨fun a b => funext fun d => d.elim0⟩
  have e3 := Host.reduce_andi_all _ _ _ _ _ e2 i
  -- the entry's test is the conjunction of the two comparisons
  exact IntOp.andi_eq_one.1 e3

end Cert.InRange

end
-- ==== Proof.HostSide.lean ====
/-
  What the host operations before the pallas_call leave in the arrays the kernel's windows read, as functions of the
  program's argument arrays.

  The node embeddings `H` are computed by the same operations as in the reference, so they are carried as ONE name,
  the reference's own stage `%46` at the kernel's arguments, and never opened. The two gathered-feature arrays are
  `jnp.take` of `H` at the edges' source and destination ids, padded with 6400 zero rows; under the precondition every
  id is a node id, the take's fill never applies, and a row `e < 800000` of the padded array is row `e` of the
  reference's plain gather (its stages `%57`, `%64`). The four weight blocks are rows `[0,64)`, `[64,128)`,
  `[128,192)`, `[192,256)` of `We1`; the two biases are recast as a row and as a 1×1 matrix.
-/
import proofs.«429669_j61100204753370_3_alg».proof.Defs
import proofs.«429669_j61100204753370_3_alg».proof.Proof.Gen.KernelIdeal.Frame
import proofs.«429669_j61100204753370_3_alg».proof.Proof.RefRead
import proofs.«429669_j61100204753370_3_alg».proof.Proof.TakeFill
import proofs.«429669_j61100204753370_3_alg».proof.Proof.InRange
import Idealize.ShloMosaic.Lib.ValueIdx
import Idealize.ShloMosaic.Lib.ValueLayout
import Idealize.ShloMosaic.Lib.KernelVsHost
import Idealize.ShloMosaic.Lib.Pipeline.Value
import Idealize.ShloMosaic.Lib.StableHlo.Run
import Idealize.ShloMosaic.Lib.Pipeline.Regions

set_option maxRecDepth 16384

noncomputable section

namespace Cert.HostSide

open Cert.KernelIdeal Cert.KernelIdeal.Gen
open Idealize.ShloMosaic Idealize.ShloMosaic.TcCoe Idealize.SL.Sem Idealize.ShloMosaic.StableHlo
open Idealize.ShloMosaic.ValueIdx

section Reads

variable {F : FTy → Type} [FloatOps F]
variable (m : (ℓ : Loc nD τ sig) → Buf (Elt F) ℓ)

/-! ## The kernel's argument arrays on a core -/

abbrev a0 (c : Dev nD) : FVec F S50000x128 .f32 := m ((c : Thread nD τ).loc main_arg0)
abbrev a1 (c : Dev nD) : FVec F S128x64 .f32 := m ((c : Thread nD τ).loc main_arg1)
abbrev a2 (c : Dev nD) : FVec F S64 .f32 := m ((c : Thread nD τ).loc main_arg2)
abbrev a3 (c : Dev nD) : FVec F S64x64 .f32 := m ((c : Thread nD τ).loc main_arg3)
abbrev a4 (c : Dev nD) : FVec F S64 .f32 := m ((c : Thread nD τ).loc main_arg4)
abbrev a5 (c : Dev nD) : FVec F S256x64 .f32 := m ((c : Thread nD τ).loc main_arg5)
abbrev a6 (c : Dev nD) : FVec F S64 .f32 := m ((c : Thread nD τ).loc main_arg6)
abbrev a7 (c : Dev nD) : FVec F S64x1 .f32 := m ((c : Thread nD τ).loc main_arg7)
abbrev a8 (c : Dev nD) : FVec F S1 .f32 := m ((c : Thread nD τ).loc main_arg8)
abbrev a9 (c : Dev nD) : IVec S2x800000 32 := m ((c : Thread nD τ).loc main_arg9)

/-- The node embeddings: the reference's stage `%46` at the kernel's arguments. -/
abbrev H (c : Dev nD) : FVec F S50000x64 .f32 :=
  Cert.ReferenceIdeal.ReadP.val_main_v46 (F := F) (a0 m c) (a1 m c) (a2 m c) (a3 m c) (a4 m c) (a9 m c)

/-- The edges' source ids and destination ids: rows 0 and 1 of the edge list. -/
abbrev src (c : Dev nD) : IVec S800000 32 := Cert.ReferenceIdeal.ReadP.val_main_v48 (F := F) (a9 m c)
abbrev dst (c : Dev nD) : IVec S800000 32 := Cert.ReferenceIdeal.ReadP.val_main_v50 (F := F) (a9 m c)

/-! ## The arrays as the region finds them -/

/-- The embeddings the program returns are the reference's stage at the kernel's arguments. -/
theorem V_H (c : Dev nD) : V m c main_v46 = H m c := by
  chain_rfl

/-- Window 2's array: rows `[0, 64)` of `We1`. -/
theorem V_wA (c : Dev nD) : V m c main_v54
    = truncf .bf16 (extractStridedSlice S64x64 ![0, 0] (a5 m c) slices_S256x64_S64x64_0_0) bitsLt_bf16_f32 := by
  chain_rfl

/-- Window 3's array: rows `[64, 128)` of `We1`. -/
theorem V_wB (c : Dev nD) : V m c main_v56
    = truncf .bf16 (extractStridedSlice S64x64 ![64, 0] (a5 m c) slices_S256x64_S64x64_64_0) bitsLt_bf16_f32 := by
  chain_rfl

/-- Window 4's array: rows `[128, 192)` of `We1`. -/
theorem V_wC (c : Dev nD) : V m c main_v58
    = truncf .bf16 (extractStridedSlice S64x64 ![128, 0] (a5 m c) slices_S256x64_S64x64_128_0) bitsLt_bf16_f32 := by
  chain_rfl

/-- Window 5's array: rows `[192, 256)` of `We1`. -/
theorem V_wD (c : Dev nD) : V m c main_v60
    = truncf .bf16 (extractStridedSlice S64x64 ![192, 0] (a5 m c) slices_S256x64_S64x64_192_0) bitsLt_bf16_f32 := by
  chain_rfl

/-- Window 6's array: the first bias as one row. -/
theorem V_b1 (c : Dev nD) : V m c main_v63 = shapeCast S1x64 (a6 m c) shapeCasts_S64_S1x64 := by
  chain_rfl

/-- Window 8's array: the second bias as a 1×1 matrix. -/
theorem V_b2 (c : Dev nD) : V m c main_v64 = shapeCast S1x1 (a8 m c) shapeCasts_S1_S1x1 := by
  chain_rfl

/-- The host operations up to the point where the embeddings and the two id rows are in place. -/
abbrev prefixOps : List (HloOp τ sig (Elt F)) := (hostOps0 ++ hostOps0_1 ++ hostOps0_2 ++ hostOps0_3 ++ hostOps0_4)

/-- The embeddings, once computed. -/
theorem X_H (c : Dev nD) : StableHlo.after (prefixOps (F := F)) (fun b => m (c, b)) (Proc.devRef .tc main_v46) = H m c := by
  change _ = _
  chain_rfl

/-- The source ids, once cut out of the edge list. -/
theorem X_src (c : Dev nD) : StableHlo.after (prefixOps (F := F)) (fun b => m (c, b)) (Proc.devRef .tc main_v48) = src m c := by
  change _ = _
  chain_rfl

/-- The destination ids, once cut out of the edge list. -/
theorem X_dst (c : Dev nD) : StableHlo.after (prefixOps (F := F)) (fun b => m (c, b)) (Proc.devRef .tc main_v50) = dst m c := by
  change _ = _
  chain_rfl

/-! ## The last host stretch: the two takes, the weight blocks, the pads and the recasts

  Read from ANY valuation `X` of the buffers at the point where the embeddings and the two id rows are in place: each
  of the take's last operations as one equation over the buffers it reads. -/

section Take
variable (X : Valuation τ sig (Elt F))

/-- The host operations from the first take on. -/
abbrev lastOps : List (HloOp τ sig (Elt F)) := (hostOps0_5 ++ hostOps0_6 ++ hostOps0_7 ++ hostOps0_8 ++ hostOps0_9 ++ hostOps0_10 ++ hostOps0_11)

/-- All the host operations before the call are the two stretches, one after the other. -/
theorem flatten_split : List.flatten [hostOps0 (F := F), hostOps0_1, hostOps0_2, hostOps0_3, hostOps0_4, hostOps0_5, hostOps0_6, hostOps0_7, hostOps0_8, hostOps0_9, hostOps0_10, hostOps0_11]
    = prefixOps ++ lastOps := by
  simp only [List.flatten_cons, List.flatten_nil, List.append_nil, List.append_assoc]

/-- A buffer after those operations, from `X`. -/
abbrev rd (b : Ref sig .tc) := StableHlo.after (lastOps (F := F)) X (Proc.devRef .tc b)

/-- The padded array is the take with 6400 rows of the converted zero behind it. -/
theorem rd_pad_src : (rd X main_v61 : FVec F S806400x64 .f32)
    = pad S806400x64 ![0, 0] ![6400, 0] ![0, 0] (rd X main_v51 : FVec F S800000x64 .f32) (sitofp (F := F) .f32 (constantI S_ 32 0#32))
        pads_S800000x64_S806400x64_064000_000 h_S_ := by
  change _ = _
  chain_rfl

/-- The take is the gathered rows where the row's in-bounds bit is set, the fill value elsewhere. -/
theorem rd_take_src : (rd X main_v51 : FVec F S800000x64 .f32)
    = select (rd X main_call2_v14 : IVec S800000x64 1) (rd X main_call2_v13 : FVec F S800000x64 .f32) (rd X main_call2_v15 : FVec F S800000x64 .f32) := by
  change _ = _
  chain_rfl

/-- The in-bounds bits laid along the 64 columns. -/
theorem rd_mask_src : (rd X main_call2_v14 : IVec S800000x64 1)
    = broadcastInDim S800000x64 ![0] bcast_S800000_S800000x64_0 (rd X main_call2_v12 : IVec S800000 1) := by
  change _ = _
  chain_rfl

/-- The in-bounds bits are those of the wrapped ids. -/
theorem rd_inb_src : (rd X main_call2_v12 : IVec S800000 1) = Cert.TakeFill.inBounds (X (Proc.devRef .tc main_v48)) := by
  change _ = _
  chain_rfl

/-- The gathered rows. -/
theorem rd_gather_src : (rd X main_call2_v13 : FVec F S800000x64 .f32)
    = Host.gather gather_S50000x64_S800000x1_S800000x64_1_0_n_n_0_1_164 (X (Proc.devRef .tc main_v46))
        (Cert.TakeFill.startCol (X (Proc.devRef .tc main_v48))) := by
  change _ = _
  chain_rfl

/-- With every id a node id, row `e < 800000` of the padded take is the gathered row `e`. -/
theorem take_row_src
    (hin : ∀ e, IntOp.cmpi .sge ((X (Proc.devRef .tc main_v48) : IVec S800000 32) e) 0#32 = 1#1
      ∧ IntOp.cmpi .slt ((X (Proc.devRef .tc main_v48) : IVec S800000 32) e) 50000#32 = 1#1)
    (e : Fin 800000) (k : Fin 64) (e' : Fin 806400) (he : e'.val = e.val) :
    (rd X main_v61 : FVec F S806400x64 .f32) (ix2 e' k)
      = Host.gather gather_S50000x64_S800000x1_S800000x64_1_0_n_n_0_1_164 (X (Proc.devRef .tc main_v46))
          (Cert.TakeFill.startCol (X (Proc.devRef .tc main_v48))) (ix2 e k) := by
  rw [rd_pad_src]
  refine (pad_apply_of_inside ![0, 0] ![6400, 0] ![0, 0] _ _ pads_S800000x64_S806400x64_064000_000 h_S_ (ix2 e' k) (ix2 e k) ?_).trans ?_
  · intro a
    match a with
    | ⟨0, _⟩ => show e'.val = 0 + e.val * (0 + 1); omega
    | ⟨1, _⟩ => show k.val = 0 + k.val * (0 + 1); omega
  · rw [rd_take_src, select_apply, rd_mask_src, rd_inb_src, Cert.TakeFill.inBounds_one _ hin, rd_gather_src]
    exact select_one _ _

/-- The padded array is the take with 6400 rows of the converted zero behind it. -/
theorem rd_pad_dst : (rd X main_v62 : FVec F S806400x64 .f32)
    = pad S806400x64 ![0, 0] ![6400, 0] ![0, 0] (rd X main_v52 : FVec F S800000x64 .f32) (sitofp (F := F) .f32 (constantI S_ 32 0#32))
        pads_S800000x64_S806400x64_064000_000 h_S_ := by
  change _ = _
  chain_rfl

/-- The take is the gathered rows where the row's in-bounds bit is set, the fill value elsewhere. -/
theorem rd_take_dst : (rd X main_v52 : FVec F S800000x64 .f32)
    = select (rd X main_call3_v14 : IVec S800000x64 1) (rd X main_call3_v13 : FVec F S800000x64 .f32) (rd X main_call3_v15 : FVec F S800000x64 .f32) := by
  change _ = _
  chain_rfl

/-- The in-bounds bits laid along the 64 columns. -/
theorem rd_mask_dst : (rd X main_call3_v14 : IVec S800000x64 1)
    = broadcastInDim S800000x64 ![0] bcast_S800000_S800000x64_0 (rd X main_call3_v12 : IVec S800000 1) := by
  change _ = _
  chain_rfl

/-- The in-bounds bits are those of the wrapped ids. -/
theorem rd_inb_dst : (rd X main_call3_v12 : IVec S800000 1) = Cert.TakeFill.inBounds (X (Proc.devRef .tc main_v50)) := by
  change _ = _
  chain_rfl

/-- The gathered rows. -/
theorem rd_gather_dst : (rd X main_call3_v13 : FVec F S800000x64 .f32)
    = Host.gather gather_S50000x64_S800000x1_S800000x64_1_0_n_n_0_1_164 (X (Proc.devRef .tc main_v46))
        (Cert.TakeFill.startCol (X (Proc.devRef .tc main_v50))) := by
  change _ = _
  chain_rfl

/-- With every id a node id, row `e < 800000` of the padded take is the gathered row `e`. -/
theorem take_row_dst
    (hin : ∀ e, IntOp.cmpi .sge ((X (Proc.devRef .tc main_v50) : IVec S800000 32) e) 0#32 = 1#1
      ∧ IntOp.cmpi .slt ((X (Proc.devRef .tc main_v50) : IVec S800000 32) e) 50000#32 = 1#1)
    (e : Fin 800000) (k : Fin 64) (e' : Fin 806400) (he : e'.val = e.val) :
    (rd X main_v62 : FVec F S806400x64 .f32) (ix2 e' k)
      = Host.gather gather_S50000x64_S800000x1_S800000x64_1_0_n_n_0_1_164 (X (Proc.devRef .tc main_v46))
          (Cert.TakeFill.startCol (X (Proc.devRef .tc main_v50))) (ix2 e k) := by
  rw [rd_pad_dst]
  refine (pad_apply_of_inside ![0, 0] ![6400, 0] ![0, 0] _ _ pads_S800000x64_S806400x64_064000_000 h_S_ (ix2 e' k) (ix2 e k) ?_).trans ?_
  · intro a
    match a with
    | ⟨0, _⟩ => show e'.val = 0 + e.val * (0 + 1); omega
    | ⟨1, _⟩ => show k.val = 0 + k.val * (0 + 1); omega
  · rw [rd_take_dst, select_apply, rd_mask_dst, rd_inb_dst, Cert.TakeFill.inBounds_one _ hin, rd_gather_dst]
    exact select_one _ _

end Take

end Reads

/-! ## The arrays at an index, over the extended reals -/

variable (m : (ℓ : Loc nD τ sig) → Buf (Elt Ideal) ℓ)

abbrev hsArr (c : Dev nD) : FVec Ideal S806400x64 .f32 := V m c main_v61
abbrev hdArr (c : Dev nD) : FVec Ideal S806400x64 .f32 := V m c main_v62
abbrev wA (c : Dev nD) : FVec Ideal S64x64 .bf16 := V m c main_v54
abbrev wB (c : Dev nD) : FVec Ideal S64x64 .bf16 := V m c main_v56
abbrev wC (c : Dev nD) : FVec Ideal S64x64 .bf16 := V m c main_v58
abbrev wD (c : Dev nD) : FVec Ideal S64x64 .bf16 := V m c main_v60
abbrev b1Arr (c : Dev nD) : FVec Ideal S1x64 .f32 := V m c main_v63
abbrev w2Arr (c : Dev nD) : FVec Ideal S64x1 .f32 := V m c main_arg7
abbrev b2Arr (c : Dev nD) : FVec Ideal S1x1 .f32 := V m c main_v64

theorem wA_apply (c : Dev nD) (k j : Fin 64) : wA m c (ix2 k j) = a5 m c (ix2 (⟨0 + k.val, by have := k.isLt; omega⟩ : Fin 256) j) := by
  show V m c main_v54 (ix2 k j) = _
  rw [V_wA]
  exact slice2_axis0_apply 0 (a5 m c) slices_S256x64_S64x64_0_0 k j ⟨0 + k.val, by have := k.isLt; omega⟩ rfl

theorem wB_apply (c : Dev nD) (k j : Fin 64) : wB m c (ix2 k j) = a5 m c (ix2 (⟨64 + k.val, by have := k.isLt; omega⟩ : Fin 256) j) := by
  show V m c main_v56 (ix2 k j) = _
  rw [V_wB]
  exact slice2_axis0_apply 64 (a5 m c) slices_S256x64_S64x64_64_0 k j ⟨64 + k.val, by have := k.isLt; omega⟩ rfl

theorem wC_apply (c : Dev nD) (k j : Fin 64) : wC m c (ix2 k j) = a5 m c (ix2 (⟨128 + k.val, by have := k.isLt; omega⟩ : Fin 256) j) := by
  show V m c main_v58 (ix2 k j) = _
  rw [V_wC]
  exact slice2_axis0_apply 128 (a5 m c) slices_S256x64_S64x64_128_0 k j ⟨128 + k.val, by have := k.isLt; omega⟩ rfl

theorem wD_apply (c : Dev nD) (k j : Fin 64) : wD m c (ix2 k j) = a5 m c (ix2 (⟨192 + k.val, by have := k.isLt; omega⟩ : Fin 256) j) := by
  show V m c main_v60 (ix2 k j) = _
  rw [V_wD]
  exact slice2_axis0_apply 192 (a5 m c) slices_S256x64_S64x64_192_0 k j ⟨192 + k.val, by have := k.isLt; omega⟩ rfl

theorem b1_apply (c : Dev nD) (j : Fin 64) : b1Arr m c (ix2 (0 : Fin 1) j) = a6 m c (ix1 j) := by
  show V m c main_v63 (ix2 (0 : Fin 1) j) = _
  rw [V_b1]
  exact shapeCast_a_1a_apply (a6 m c) shapeCasts_S64_S1x64 0 j

theorem b2_apply (c : Dev nD) : b2Arr m c (ix2 (0 : Fin 1) (0 : Fin 1)) = a8 m c (ix1 (0 : Fin 1)) := by
  show V m c main_v64 (ix2 (0 : Fin 1) (0 : Fin 1)) = _
  rw [V_b2]
  exact shapeCast_a_1a_apply (a8 m c) shapeCasts_S1_S1x1 0 0

theorem w2_apply (c : Dev nD) (j : Fin 64) : w2Arr m c (ix2 j (0 : Fin 1)) = a7 m c (ix2 j (0 : Fin 1)) := by
  show V m c main_arg7 (ix2 j (0 : Fin 1)) = _
  rw [V_main_arg7]

/-! ## Under the precondition: the padded takes' rows are the reference's gathered rows -/

section Pre
variable [Cert.Pre_finite_inputs.Facts]

/-- Every entry of the edge list is a node id. -/
theorem in_range (hpre : Cert.Pre_KernelIdeal m) (c : Dev nD) (i : S2x800000.Idx) :
    IntOp.cmpi .sge (a9 m c i) 0#32 = 1#1 ∧ IntOp.cmpi .slt (a9 m c i) 50000#32 = 1#1 :=
  Cert.InRange.of_pre _ _ _ _ _ _ _ _ _ _ (hpre c) i

theorem src_in_range (hpre : Cert.Pre_KernelIdeal m) (c : Dev nD) (e : S800000.Idx) :
    IntOp.cmpi .sge (src m c e) 0#32 = 1#1 ∧ IntOp.cmpi .slt (src m c e) 50000#32 = 1#1 := by
  have h : src m c e = a9 m c (Cert.ReferenceIdeal.ReadP.idx_main_v47 (Cert.ReferenceIdeal.ReadP.idx_main_v48 e)) := by
    show Cert.ReferenceIdeal.ReadP.val_main_v48 (F := Ideal) (a9 m c) e = _
    rw [Cert.ReferenceIdeal.ReadP.val_main_v48_apply, Cert.ReferenceIdeal.ReadP.val_main_v47_apply]
  rw [h]
  exact in_range m hpre c _

theorem dst_in_range (hpre : Cert.Pre_KernelIdeal m) (c : Dev nD) (e : S800000.Idx) :
    IntOp.cmpi .sge (dst m c e) 0#32 = 1#1 ∧ IntOp.cmpi .slt (dst m c e) 50000#32 = 1#1 := by
  have h : dst m c e = a9 m c (Cert.ReferenceIdeal.ReadP.idx_main_v49 (Cert.ReferenceIdeal.ReadP.idx_main_v50 e)) := by
    show Cert.ReferenceIdeal.ReadP.val_main_v50 (F := Ideal) (a9 m c) e = _
    rw [Cert.ReferenceIdeal.ReadP.val_main_v50_apply, Cert.ReferenceIdeal.ReadP.val_main_v49_apply]
  rw [h]
  exact in_range m hpre c _

/-- The wrapped source ids as the gather's start column are the reference's stage `%56`. -/
theorem startCol_src (x9 : IVec S2x800000 32) :
    Cert.TakeFill.startCol (Cert.ReferenceIdeal.ReadP.val_main_v48 (F := Ideal) x9) = Cert.ReferenceIdeal.ReadP.val_main_v56 (F := Ideal) x9 := rfl

/-- The wrapped destination ids as the gather's start column are the reference's stage `%63`. -/
theorem startCol_dst (x9 : IVec S2x800000 32) :
    Cert.TakeFill.startCol (Cert.ReferenceIdeal.ReadP.val_main_v50 (F := Ideal) x9) = Cert.ReferenceIdeal.ReadP.val_main_v63 (F := Ideal) x9 := rfl

/-- Row `e < 800000` of the padded source features is the reference's gathered source row. -/
theorem hs_row (hpre : Cert.Pre_KernelIdeal m) (c : Dev nD) (e : Fin 800000) (k : Fin 64) (e' : Fin 806400) (he : e'.val = e.val) :
    hsArr m c (ix2 e' k)
      = Cert.ReferenceIdeal.ReadP.val_main_v57 (F := Ideal) (a0 m c) (a1 m c) (a2 m c) (a3 m c) (a4 m c) (a9 m c) (ix2 e k) := by
  show V m c main_v61 (ix2 e' k) = _
  dsimp only [V, V0]
  rw [flatten_split, StableHlo.after_append]
  refine (take_row_src (StableHlo.after prefixOps (fun b => m (c, b))) ?_ e k e' he).trans ?_
  · intro e0
    rw [X_src]
    exact src_in_range m hpre c e0
  · rw [X_H, X_src, startCol_src]
    rfl

/-- Row `e < 800000` of the padded destination features is the reference's gathered destination row. -/
theorem hd_row (hpre : Cert.Pre_KernelIdeal m) (c : Dev nD) (e : Fin 800000) (k : Fin 64) (e' : Fin 806400) (he : e'.val = e.val) :
    hdArr m c (ix2 e' k)
      = Cert.ReferenceIdeal.ReadP.val_main_v64 (F := Ideal) (a0 m c) (a1 m c) (a2 m c) (a3 m c) (a4 m c) (a9 m c) (ix2 e k) := by
  show V m c main_v62 (ix2 e' k) = _
  dsimp only [V, V0]
  rw [flatten_split, StableHlo.after_append]
  refine (take_row_dst (StableHlo.after prefixOps (fun b => m (c, b))) ?_ e k e' he).trans ?_
  · intro e0
    rw [X_dst]
    exact dst_in_range m hpre c e0
  · rw [X_H, X_dst, startCol_dst]
    rfl

end Pre

end Cert.HostSide

end
-- ==== Proof.EdgeMlp.lean ====
/-
  The edge MLP of ONE edge over the extended reals, as plain functions of the edge's two gathered node rows
  `hs hd : Fin 64 → EReal` and of the weights.

  The edge's 256 features are four bands of 64: the source row, the destination row, their product, and the absolute
  value of their difference. A hidden unit is `max (features · column of W + bias) 0`; the logit is the hidden
  units' sum against the second layer's column plus its bias; the probability is `1 / (1 + e^(-logit))`.

  The first layer's sum can be taken in one piece over the 256 features (`hidden256`) or band by band against the
  four 64-row blocks of `W` and added left to right (`hidden4`). The two agree on all extended reals
  (`hidden256_eq_hidden4`): a finite sum over `Fin 256` splits at 64, 128 and 192 into four sums, which uses
  only that addition on the extended reals is commutative and associative, so no finiteness is needed.
-/
import Idealize.ShloMosaic.PureOps.Ideal
import Mathlib.Algebra.BigOperators.Fin

noncomputable section

namespace Cert.EdgeMlp

open Idealize.ShloMosaic

/-- `|a - b|` as the extended reals have it: the larger of the difference and its negation. -/
def absDiff (a b : EReal) : EReal := max (a - b) (-(a - b))

/-- Feature `k` of an edge: bands `[0, 64)` source row, `[64, 128)` destination row, `[128, 192)` their product,
    `[192, 256)` the absolute difference. -/
def feat (hs hd : Fin 64 → EReal) (k : Fin 256) : EReal :=
  if h0 : k.val < 64 then hs ⟨k.val, h0⟩
  else if h1 : k.val < 128 then hd ⟨k.val - 64, by omega⟩
  else if h2 : k.val < 192 then hs ⟨k.val - 128, by omega⟩ * hd ⟨k.val - 128, by omega⟩
  else absDiff (hs ⟨k.val - 192, by have := k.isLt; omega⟩) (hd ⟨k.val - 192, by have := k.isLt; omega⟩)

/-- Hidden unit `j`, the sum taken in one piece over the 256 features. -/
def hidden256 (hs hd : Fin 64 → EReal) (W : Fin 256 → Fin 64 → EReal) (b1 : Fin 64 → EReal) (j : Fin 64) : EReal :=
  max ((∑ k : Fin 256, feat hs hd k * W k j) + b1 j) 0

/-- Hidden unit `j`, the sum taken band by band against four 64-row blocks and added left to right. -/
def hidden4 (hs hd : Fin 64 → EReal) (A B C D : Fin 64 → Fin 64 → EReal) (b1 : Fin 64 → EReal) (j : Fin 64) : EReal :=
  max (((((∑ k : Fin 64, hs k * A k j) + ∑ k : Fin 64, hd k * B k j) + ∑ k : Fin 64, (hs k * hd k) * C k j)
    + ∑ k : Fin 64, absDiff (hs k) (hd k) * D k j) + b1 j) 0

/-- The logit: the hidden units against the second layer's column, plus its bias. -/
def logit (h : Fin 64 → EReal) (w2 : Fin 64 → EReal) (b2 : EReal) : EReal := (∑ j : Fin 64, h j * w2 j) + b2

/-- The probability of a logit: `1 / (1 + e^(-x))`. -/
def prob (x : EReal) : EReal := Ideal.div 1 (1 + Ideal.exp (-x))

/-- Rows `[o, o + 64)` of a 256-row matrix, as a 64-row block. -/
def band (W : Fin 256 → Fin 64 → EReal) (o : Nat) (ho : o + 64 ≤ 256) : Fin 64 → Fin 64 → EReal :=
  fun k j => W ⟨o + k.val, by have := k.isLt; omega⟩ j

/-- A sum over `Fin 256` is the sum of its four bands of 64, added left to right. -/
theorem sum_bands (f : Fin 256 → EReal) :
    ∑ k : Fin 256, f k
      = ((∑ k : Fin 64, f ⟨0 + k.val, by have := k.isLt; omega⟩ + ∑ k : Fin 64, f ⟨64 + k.val, by have := k.isLt; omega⟩)
          + ∑ k : Fin 64, f ⟨128 + k.val, by have := k.isLt; omega⟩) + ∑ k : Fin 64, f ⟨192 + k.val, by have := k.isLt; omega⟩ := by
  have e1 : ∑ k : Fin 256, f k = ∑ i : Fin 192, f (Fin.castAdd 64 i) + ∑ i : Fin 64, f (Fin.natAdd 192 i) :=
    Fin.sum_univ_add (a := 192) (b := 64) f
  have e2 : ∑ i : Fin 192, f (Fin.castAdd 64 i)
      = ∑ i : Fin 128, f (Fin.castAdd 64 (Fin.castAdd 64 i)) + ∑ i : Fin 64, f (Fin.castAdd 64 (Fin.natAdd 128 i)) :=
    Fin.sum_univ_add (a := 128) (b := 64) fun i => f (Fin.castAdd 64 i)
  have e3 : ∑ i : Fin 128, f (Fin.castAdd 64 (Fin.castAdd 64 i))
      = ∑ i : Fin 64, f (Fin.castAdd 64 (Fin.castAdd 64 (Fin.castAdd 64 i)))
        + ∑ i : Fin 64, f (Fin.castAdd 64 (Fin.castAdd 64 (Fin.natAdd 64 i))) :=
    Fin.sum_univ_add (a := 64) (b := 64) fun i => f (Fin.castAdd 64 (Fin.castAdd 64 i))
  rw [e1, e2, e3]
  refine congrArg₂ (· + ·) (congrArg₂ (· + ·) (congrArg₂ (· + ·) ?_ ?_) ?_) ?_ <;>
    exact Finset.sum_congr rfl fun k _ => congrArg f (Fin.ext (by simp [Fin.castAdd, Fin.natAdd]))

theorem feat_band0 (hs hd : Fin 64 → EReal) (k : Fin 64) :
    feat hs hd ⟨0 + k.val, by have := k.isLt; omega⟩ = hs k := by
  unfold feat
  rw [dif_pos (show (0 + k.val) < 64 by have := k.isLt; omega)]
  exact congrArg hs (Fin.ext (Nat.zero_add _))

theorem feat_band1 (hs hd : Fin 64 → EReal) (k : Fin 64) :
    feat hs hd ⟨64 + k.val, by have := k.isLt; omega⟩ = hd k := by
  unfold feat
  rw [dif_neg (show ¬(64 + k.val) < 64 by omega), dif_pos (show (64 + k.val) < 128 by have := k.isLt; omega)]
  exact congrArg hd (Fin.ext (by show 64 + k.val - 64 = k.val; omega))

theorem feat_band2 (hs hd : Fin 64 → EReal) (k : Fin 64) :
    feat hs hd ⟨128 + k.val, by have := k.isLt; omega⟩ = hs k * hd k := by
  unfold feat
  rw [dif_neg (show ¬(128 + k.val) < 64 by omega), dif_neg (show ¬(128 + k.val) < 128 by omega),
    dif_pos (show (128 + k.val) < 192 by have := k.isLt; omega)]
  have e : (⟨128 + k.val - 128, by have := k.isLt; omega⟩ : Fin 64) = k := Fin.ext (by show 128 + k.val - 128 = k.val; omega)
  rw [e]

theorem feat_band3 (hs hd : Fin 64 → EReal) (k : Fin 64) :
    feat hs hd ⟨192 + k.val, by have := k.isLt; omega⟩ = absDiff (hs k) (hd k) := by
  unfold feat
  rw [dif_neg (show ¬(192 + k.val) < 64 by omega), dif_neg (show ¬(192 + k.val) < 128 by omega),
    dif_neg (show ¬(192 + k.val) < 192 by omega)]
  have e : (⟨192 + k.val - 192, by have := k.isLt; omega⟩ : Fin 64) = k := Fin.ext (by show 192 + k.val - 192 = k.val; omega)
  rw [e]

/-- The one-piece sum over the 256 features is the four band sums against the four blocks of `W`. -/
theorem hidden256_eq_hidden4 (hs hd : Fin 64 → EReal) (W : Fin 256 → Fin 64 → EReal) (b1 : Fin 64 → EReal) (j : Fin 64) :
    hidden256 hs hd W b1 j
      = hidden4 hs hd (band W 0 (by omega)) (band W 64 (by omega)) (band W 128 (by omega)) (band W 192 (by omega)) b1 j := by
  unfold hidden256 hidden4 band
  rw [sum_bands]
  simp only [feat_band0, feat_band1, feat_band2, feat_band3]

end Cert.EdgeMlp

end
-- ==== Proof.BlockAt.lean ====
/-
  What one grid point of the edge-MLP kernel leaves in its two output blocks, read at one edge of the block:
  the logit and the probability of that edge as the plain functions of `EdgeMlp`, over the edge's rows of the two
  gathered-feature blocks, the four 64×64 weight blocks, the bias row, the second layer's column and its bias.
-/
import proofs.«429669_j61100204753370_3_alg».proof.Proof.Gen.KernelIdeal.Frame
import proofs.«429669_j61100204753370_3_alg».proof.Proof.EdgeMlp
import Idealize.ShloMosaic.Lib.ValueIdx
import Idealize.ShloMosaic.Lib.ValueLayout
import Idealize.ShloMosaic.Lib.Pipeline.Value
import Idealize.ShloMosaic.PureOps.Ideal.Laws

noncomputable section

namespace Cert.BlockAt

open Cert.KernelIdeal Cert.KernelIdeal.Gen Idealize.ShloMosaic Idealize.ShloMosaic.ValueIdx

/-- The two zero offsets of a whole-block rectangle, as the constant function. -/
theorem hz : (![0, 0] : Fin 2 → Nat) = fun _ => 0 := funext fun a => by fin_cases a <;> rfl

/-- Output window 9's block is the stored logit payload over the input blocks themselves: the one store covers the
    block, and each load through the whole-block rectangle reads its block. -/
theorem out0_9_eq (x0 x1 : Vec Ideal S19200x64 .f32) (x2 x3 x4 x5 : Vec Ideal S64x64 .bf16) (x6 : Vec Ideal S1x64 .f32)
    (x7 : Vec Ideal S64x1 .f32) (x8 : Vec Ideal S1x1 .f32) :
    out0_9 (F := Ideal) x0 x1 x2 x3 x4 x5 x6 x7 x8
      = k0_pay2 (k0_pay4 x0 x1 x2 x3 x4 x5 x6) (k0_pay5 x7) (k0_pay6 x8) := by
  unfold out0_9
  rw [View.canon_unit_zero hz]
  simp only [View.ld_unit_zero (S := S19200x64) hz, View.ld_unit_zero (S := S64x64) hz,
    View.ld_unit_zero (S := S1x64) hz, View.ld_unit_zero (S := S64x1) hz, View.ld_unit_zero (S := S1x1) hz]

/-- Output window 10's block likewise, over the probability payload. -/
theorem out0_10_eq (x0 x1 : Vec Ideal S19200x64 .f32) (x2 x3 x4 x5 : Vec Ideal S64x64 .bf16) (x6 : Vec Ideal S1x64 .f32)
    (x7 : Vec Ideal S64x1 .f32) (x8 : Vec Ideal S1x1 .f32) :
    out0_10 (F := Ideal) x0 x1 x2 x3 x4 x5 x6 x7 x8
      = k0_pay3 (k0_pay4 x0 x1 x2 x3 x4 x5 x6) (k0_pay5 x7) (k0_pay6 x8) := by
  unfold out0_10
  rw [View.canon_unit_zero hz]
  simp only [View.ld_unit_zero (S := S19200x64) hz, View.ld_unit_zero (S := S64x64) hz,
    View.ld_unit_zero (S := S1x64) hz, View.ld_unit_zero (S := S64x1) hz, View.ld_unit_zero (S := S1x1) hz]

/-- The second layer's column, cast from [64, 1] to [64], read at j is the column at (j, 0): both sit at row-major
    position j. -/
theorem pay5_at (x7 : Vec Ideal S64x1 .f32) (j : Fin 64) :
    k0_pay5 (F := Ideal) x7 (ix1 j) = x7 (ix2 j (0 : Fin 1)) := by
  unfold k0_pay5
  exact shapeCast_apply x7 shapeCasts_S64x1_S64 (ix1 j) (ix2 j (0 : Fin 1)) (by
    rw [Shape.rowMajor_val_two, Shape.rowMajor_val_one]
    show j.val * 1 + 0 = j.val
    omega)

/-- The second layer's bias, extracted from the [1, 1] block at position (0, 0), is the block's one element. -/
theorem pay6_eq (x8 : Vec Ideal S1x1 .f32) :
    k0_pay6 (F := Ideal) x8 = x8 (ix2 (0 : Fin 1) (0 : Fin 1)) := by
  unfold k0_pay6 extractAt
  exact congrArg x8 (funext fun a => Fin.ext (by
    match a with
    | ⟨0, _⟩ => rfl
    | ⟨1, _⟩ => rfl))

/-! ## One 64-wide contraction read at an index

The four axis facts of the kernel's dot record (rows by contraction times contraction by columns): the left operand's
index at output (r, c) and contraction position q is (r, q), the right one's is (q, c). -/

theorem lhs_0 (i : S19200x64.Idx) (q : dot_S19200x64_S64x64_S19200x64_1_0_0_1_n_n.contr.Idx) :
    (dot_S19200x64_S64x64_S19200x64_1_0_0_1_n_n.lhsIdx i q 0).val = (i 0).val := by
  unfold DotDims.lhsIdx
  rw [dif_neg (show ¬(0 : Fin S19200x64.rank) ∈ dot_S19200x64_S64x64_S19200x64_1_0_0_1_n_n.lhsBatch by decide),
    dif_pos (show (0 : Fin S19200x64.rank) ∈ dot_S19200x64_S64x64_S19200x64_1_0_0_1_n_n.lhsNonContracting by decide)]
  rfl
theorem lhs_1 (i : S19200x64.Idx) (q : dot_S19200x64_S64x64_S19200x64_1_0_0_1_n_n.contr.Idx) :
    (dot_S19200x64_S64x64_S19200x64_1_0_0_1_n_n.lhsIdx i q 1).val = (q ⟨0, by decide⟩).val :=
  dot_S19200x64_S64x64_S19200x64_1_0_0_1_n_n.lhsIdx_val_of_single rfl i q
theorem rhs_0 (i : S19200x64.Idx) (q : dot_S19200x64_S64x64_S19200x64_1_0_0_1_n_n.contr.Idx) :
    (dot_S19200x64_S64x64_S19200x64_1_0_0_1_n_n.rhsIdx i q 0).val = (q ⟨0, by decide⟩).val :=
  dot_S19200x64_S64x64_S19200x64_1_0_0_1_n_n.rhsIdx_val_of_single rfl i q
theorem rhs_1 (i : S19200x64.Idx) (q : dot_S19200x64_S64x64_S19200x64_1_0_0_1_n_n.contr.Idx) :
    (dot_S19200x64_S64x64_S19200x64_1_0_0_1_n_n.rhsIdx i q 1).val = (i 1).val := by
  unfold DotDims.rhsIdx
  rw [dif_neg (show ¬(1 : Fin S64x64.rank) ∈ dot_S19200x64_S64x64_S19200x64_1_0_0_1_n_n.rhsBatch by decide),
    dif_pos (show (1 : Fin S64x64.rank) ∈ dot_S19200x64_S64x64_S19200x64_1_0_0_1_n_n.rhsNonContracting by decide)]
  rfl

/-- A matrix product into the zero block, read at (r, j): the sum over the 64 contraction positions of the left
    operand's row r times the right operand's column j. -/
theorem mm_at (a : FVec Ideal S19200x64 .bf16) (w : FVec Ideal S64x64 .bf16) (r : Fin 19200) (j : Fin 64) :
    matmul dot_S19200x64_S64x64_S19200x64_1_0_0_1_n_n none a w (constant S19200x64 .f32 0x00000000#32) (ix2 r j)
      = ∑ k : Fin 64, a (ix2 r k) * w (ix2 k j) := by
  refine (Ideal.matmul_constant_zero_apply dot_S19200x64_S64x64_S19200x64_1_0_0_1_n_n none a w (ix2 r j)).trans ?_
  rw [← Equiv.sum_comp (ValueIdx.contrEquiv1 dot_S19200x64_S64x64_S19200x64_1_0_0_1_n_n 64 rfl rfl).symm]
  refine Finset.sum_congr rfl fun k _ => ?_
  have hk := ValueIdx.contrEquiv1_symm_val dot_S19200x64_S64x64_S19200x64_1_0_0_1_n_n 64 rfl rfl k
  have el : dot_S19200x64_S64x64_S19200x64_1_0_0_1_n_n.lhsIdx (ix2 r j)
      ((ValueIdx.contrEquiv1 dot_S19200x64_S64x64_S19200x64_1_0_0_1_n_n 64 rfl rfl).symm k) = ix2 r k :=
    funext fun c => Fin.ext (by
      match c with
      | ⟨0, _⟩ => exact lhs_0 _ _
      | ⟨1, _⟩ => exact (lhs_1 _ _).trans hk)
  have er : dot_S19200x64_S64x64_S19200x64_1_0_0_1_n_n.rhsIdx (ix2 r j)
      ((ValueIdx.contrEquiv1 dot_S19200x64_S64x64_S19200x64_1_0_0_1_n_n 64 rfl rfl).symm k) = ix2 k j :=
    funext fun c => Fin.ext (by
      match c with
      | ⟨0, _⟩ => exact (rhs_0 _ _).trans hk
      | ⟨1, _⟩ => exact rhs_1 _ _)
  rw [el, er]

/-! ## The second layer -/

/-- The sum over the 64 lanes of a [19200, 64] block, read at row r. -/
theorem rowsum_at (src : FVec Ideal S19200x64 .f32) (r : Fin 19200) :
    multiReduction .add [1] S19200 src 0x00000000#32 reduces_S19200x64_S19200 (.inl rfl) rfl (ix1 r)
      = ∑ j : Fin 64, src (ix2 r j) := by
  refine (Ideal.multiReduction_add_single src 0x00000000#32 reduces_S19200x64_S19200 (.inl rfl) rfl (ix1 r)).trans ?_
  refine Finset.sum_congr rfl fun (j : Fin 64) _ => congrArg src (funext fun c => Fin.ext ?_)
  match c with
  | ⟨0, _⟩ => rfl
  | ⟨1, _⟩ => rfl

/-- The logit payload at row r: the hidden row against the second layer's column, laid along every row, plus the
    bias. -/
theorem pay1_at (v31 : FVec Ideal S19200x64 .f32) (v33 : FVec Ideal S64 .f32) (v35 : Ideal .f32) (r : Fin 19200) :
    k0_pay1 (F := Ideal) v31 v33 v35 (ix1 r) = (∑ j : Fin 64, v31 (ix2 r j) * v33 (ix1 j)) + v35 := by
  unfold k0_pay1
  refine (addf_apply _ _ (ix1 r)).trans (congrArg₂ (· + ·) ?_ rfl)
  refine (rowsum_at _ r).trans (Finset.sum_congr rfl fun j _ => ?_)
  refine (mulf_apply _ _ (ix2 r j)).trans (congrArg₂ (· * ·) rfl ?_)
  refine (broadcastTo_1b_ab_apply _ broadcasts_S1x64_S19200x64 r j).trans ?_
  exact shapeCast_a_1a_apply v33 shapeCasts_S64_S1x64 (0 : Fin 1) j

/-! ## The first layer -/

/-- The hidden block at (r, j): the four band products added left to right, plus the bias row, clamped below at
    zero. The four left operands are the source row, the destination row, their product and the absolute value of
    their difference; narrowing to the matrix unit's format changes no extended real. -/
theorem pay4_at (x0 x1 : Vec Ideal S19200x64 .f32) (x2 x3 x4 x5 : Vec Ideal S64x64 .bf16) (x6 : Vec Ideal S1x64 .f32)
    (r : Fin 19200) (j : Fin 64) :
    k0_pay4 (F := Ideal) x0 x1 x2 x3 x4 x5 x6 (ix2 r j)
      = Cert.EdgeMlp.hidden4 (fun k => x0 (ix2 r k)) (fun k => x1 (ix2 r k))
          (fun k j => x2 (ix2 k j)) (fun k j => x3 (ix2 k j)) (fun k j => x4 (ix2 k j)) (fun k j => x5 (ix2 k j))
          (fun j => x6 (ix2 (0 : Fin 1) j)) j := by
  unfold k0_pay4
  simp only [shapeCast_self]
  unfold Cert.EdgeMlp.hidden4
  refine (maximumf_apply _ _ (ix2 r j)).trans (congrArg₂ max ?_ ?_)
  · refine (addf_apply _ _ (ix2 r j)).trans (congrArg₂ (· + ·) ?_ ?_)
    · refine (addf_apply _ _ (ix2 r j)).trans (congrArg₂ (· + ·) ?_ ?_)
      · refine (addf_apply _ _ (ix2 r j)).trans (congrArg₂ (· + ·) ?_ ?_)
        · refine (addf_apply _ _ (ix2 r j)).trans (congrArg₂ (· + ·) ?_ ?_)
          · exact (mm_at _ _ r j).trans (Finset.sum_congr rfl fun k _ => rfl)
          · exact (mm_at _ _ r j).trans (Finset.sum_congr rfl fun k _ => rfl)
        · exact (mm_at _ _ r j).trans (Finset.sum_congr rfl fun k _ => rfl)
      · exact (mm_at _ _ r j).trans (Finset.sum_congr rfl fun k _ => rfl)
    · exact broadcastTo_1b_ab_apply x6 broadcasts_S1x64_S19200x64 r j
  · show Ideal.ofBits .f32 0x00000000#32 = 0
    exact Ideal.ofBits_zero_f32

/-- The logit the body stores for edge `r` of the block, from the block's inputs. -/
def logitOf (x0 x1 : Vec Ideal S19200x64 .f32) (x2 x3 x4 x5 : Vec Ideal S64x64 .bf16) (x6 : Vec Ideal S1x64 .f32)
    (x7 : Vec Ideal S64x1 .f32) (x8 : Vec Ideal S1x1 .f32) (r : Fin 19200) : EReal :=
  Cert.EdgeMlp.logit
    (fun j => Cert.EdgeMlp.hidden4 (fun k => x0 (ix2 r k)) (fun k => x1 (ix2 r k))
      (fun k j => x2 (ix2 k j)) (fun k j => x3 (ix2 k j)) (fun k j => x4 (ix2 k j)) (fun k j => x5 (ix2 k j))
      (fun j => x6 (ix2 (0 : Fin 1) j)) j)
    (fun j => x7 (ix2 j (0 : Fin 1))) (x8 (ix2 (0 : Fin 1) (0 : Fin 1)))

/-! ## The two output blocks at an edge -/

/-- The logit payload over the body's own hidden block, column and bias, at row r, is the edge's logit. -/
theorem pay1_logit (x0 x1 : Vec Ideal S19200x64 .f32) (x2 x3 x4 x5 : Vec Ideal S64x64 .bf16) (x6 : Vec Ideal S1x64 .f32)
    (x7 : Vec Ideal S64x1 .f32) (x8 : Vec Ideal S1x1 .f32) (r : Fin 19200) :
    k0_pay1 (F := Ideal) (k0_pay4 x0 x1 x2 x3 x4 x5 x6) (k0_pay5 x7) (k0_pay6 x8) (ix1 r)
      = logitOf x0 x1 x2 x3 x4 x5 x6 x7 x8 r := by
  refine (pay1_at _ _ _ r).trans ?_
  unfold logitOf Cert.EdgeMlp.logit
  exact congrArg₂ (· + ·)
    (Finset.sum_congr rfl fun j _ => congrArg₂ (· * ·) (pay4_at x0 x1 x2 x3 x4 x5 x6 r j) (pay5_at x7 j))
    (pay6_eq x8)

/-- The elementwise logistic read at an index is the extended reals' logistic of the element. -/
theorem logistic_at {s : Shape} {φ : FTy} (x : FVec Ideal s φ) (i : s.Idx) : logistic x i = Ideal.logistic (x i) := rfl

/-- Output window 9's block (the logits) at edge `r`. -/
theorem logit_at (x0 x1 : Vec Ideal S19200x64 .f32) (x2 x3 x4 x5 : Vec Ideal S64x64 .bf16) (x6 : Vec Ideal S1x64 .f32)
    (x7 : Vec Ideal S64x1 .f32) (x8 : Vec Ideal S1x1 .f32) (r : Fin 19200) :
    out0_9 (F := Ideal) x0 x1 x2 x3 x4 x5 x6 x7 x8 (ix2 (0 : Fin 1) r) = logitOf x0 x1 x2 x3 x4 x5 x6 x7 x8 r := by
  refine (congrFun (out0_9_eq x0 x1 x2 x3 x4 x5 x6 x7 x8) (ix2 (0 : Fin 1) r)).trans ?_
  unfold k0_pay2
  refine (shapeCast_a_1a_apply _ shapeCasts_S19200_S1x19200 (0 : Fin 1) r).trans ?_
  exact pay1_logit x0 x1 x2 x3 x4 x5 x6 x7 x8 r

/-- Output window 10's block (the probabilities) at edge `r`. -/
theorem prob_at (x0 x1 : Vec Ideal S19200x64 .f32) (x2 x3 x4 x5 : Vec Ideal S64x64 .bf16) (x6 : Vec Ideal S1x64 .f32)
    (x7 : Vec Ideal S64x1 .f32) (x8 : Vec Ideal S1x1 .f32) (r : Fin 19200) :
    out0_10 (F := Ideal) x0 x1 x2 x3 x4 x5 x6 x7 x8 (ix2 (0 : Fin 1) r)
      = Cert.EdgeMlp.prob (logitOf x0 x1 x2 x3 x4 x5 x6 x7 x8 r) := by
  refine (congrFun (out0_10_eq x0 x1 x2 x3 x4 x5 x6 x7 x8) (ix2 (0 : Fin 1) r)).trans ?_
  unfold k0_pay3
  refine (shapeCast_a_1a_apply _ shapeCasts_S19200_S1x19200 (0 : Fin 1) r).trans ?_
  refine (logistic_at _ (ix1 r)).trans ?_
  refine (congrArg Ideal.logistic (pay1_logit x0 x1 x2 x3 x4 x5 x6 x7 x8 r)).trans ?_
  unfold Cert.EdgeMlp.prob Ideal.logistic
  rfl

end Cert.BlockAt

end
-- ==== Proof.RefAt.lean ====
/-
  The reference's logit and probability of one edge, read off its run stage by stage: the plain functions of `EdgeMlp`
  over the edge's two gathered rows (stages `%57`, `%64` of the reference, kept as they are) and the weight arrays.
-/
import proofs.«429669_j61100204753370_3_alg».proof.Proof.RefRead
import proofs.«429669_j61100204753370_3_alg».proof.Proof.EdgeMlp
import Idealize.ShloMosaic.Lib.ValueIdx
import Idealize.ShloMosaic.Lib.ValueLayout
import Idealize.ShloMosaic.Lib.Pipeline.Value
import Idealize.ShloMosaic.Lib.IdealHost

noncomputable section

namespace Cert.RefAt

open Cert.ReferenceIdeal Cert.ReferenceIdeal.ReadP Idealize.ShloMosaic Idealize.ShloMosaic.ValueIdx

variable (x0 : (⟨S50000x128, .f32⟩ : BufTy).Contents (Elt Ideal)) (x1 : (⟨S128x64, .f32⟩ : BufTy).Contents (Elt Ideal))
  (x2 : (⟨S64, .f32⟩ : BufTy).Contents (Elt Ideal)) (x3 : (⟨S64x64, .f32⟩ : BufTy).Contents (Elt Ideal))
  (x4 : (⟨S64, .f32⟩ : BufTy).Contents (Elt Ideal)) (x5 : (⟨S256x64, .f32⟩ : BufTy).Contents (Elt Ideal))
  (x6 : (⟨S64, .f32⟩ : BufTy).Contents (Elt Ideal)) (x7 : (⟨S64x1, .f32⟩ : BufTy).Contents (Elt Ideal))
  (x8 : (⟨S1, .f32⟩ : BufTy).Contents (Elt Ideal)) (x9 : (⟨S2x800000, .i32⟩ : BufTy).Contents (Elt Ideal))

/-- The reference's logit of edge `e` as the plain function of the edge's gathered rows and the weights. -/
def logitOf (e : Fin 800000) : EReal :=
  Cert.EdgeMlp.logit
    (fun j => Cert.EdgeMlp.hidden256
      (fun k => val_main_v57 (F := Ideal) x0 x1 x2 x3 x4 x9 (ix2 e k))
      (fun k => val_main_v64 (F := Ideal) x0 x1 x2 x3 x4 x9 (ix2 e k))
      (fun k j => x5 (ix2 k j)) (fun j => x6 (ix1 j)) j)
    (fun j => x7 (ix2 j (0 : Fin 1))) (x8 (ix1 (0 : Fin 1)))

/-- The left operand's index in the first layer's sum: feature k of edge e. -/
theorem lidx69 (e : Fin 800000) (j : Fin 64) (k : Fin 256) : lidx_main_v69 (ix2 e j) k = ix2 e k :=
  funext fun a => Fin.ext (by match a with | ⟨0, _⟩ => rfl | ⟨1, _⟩ => rfl)

/-- The right operand's index in the first layer's sum: row k, column j of the weights. -/
theorem ridx69 (e : Fin 800000) (j : Fin 64) (k : Fin 256) : ridx_main_v69 (ix2 e j) k = ix2 k j :=
  funext fun a => Fin.ext (by match a with | ⟨0, _⟩ => rfl | ⟨1, _⟩ => rfl)

/-- The left operand's index in the second layer's sum: hidden unit k of edge e. -/
theorem lidx74 (e : Fin 800000) (k : Fin 64) : lidx_main_v74 (ix2 e (0 : Fin 1)) k = ix2 e k :=
  funext fun a => Fin.ext (by match a with | ⟨0, _⟩ => rfl | ⟨1, _⟩ => rfl)

/-- The right operand's index in the second layer's sum: row k of the one-column weights. -/
theorem ridx74 (e : Fin 800000) (k : Fin 64) : ridx_main_v74 (ix2 e (0 : Fin 1)) k = ix2 k (0 : Fin 1) :=
  funext fun a => Fin.ext (by match a with | ⟨0, _⟩ => rfl | ⟨1, _⟩ => rfl)

/-- The reshape to one axis reads edge e at row e, column 0. -/
theorem idx78 (e : Fin 800000) : idx_main_v78 (ix1 e) = ix2 e (0 : Fin 1) :=
  funext fun a => Fin.ext (by
    match a with
    | ⟨0, _⟩ => exact Nat.div_one _
    | ⟨1, _⟩ => rfl)

/-- The concatenated feature array at edge e, column k, is feature k of the edge's two gathered rows: the
    column falls in one of four bands of 64, and the band's piece is read at the column less the band's start. -/
theorem feat_at (e : Fin 800000) (k : Fin 256) :
    val_main_v68 (F := Ideal) x0 x1 x2 x3 x4 x9 (ix2 e k)
      = Cert.EdgeMlp.feat
          (fun c => val_main_v57 (F := Ideal) x0 x1 x2 x3 x4 x9 (ix2 e c))
          (fun c => val_main_v64 (F := Ideal) x0 x1 x2 x3 x4 x9 (ix2 e c)) k := by
  unfold Cert.EdgeMlp.feat val_main_v68
  by_cases h0 : k.val < 64
  · rw [dif_pos h0]
    exact concatenate_apply_piece 1 _ _ (ix2 e k) 0 (by show (0 : Nat) < 4; omega) S800000x64 _ rfl rfl 0 rfl
      (ix2 e ⟨k.val, h0⟩) (fun b hb => match b with | ⟨0, _⟩ => rfl | ⟨1, _⟩ => absurd rfl hb)
      (by show 0 + k.val = k.val; omega)
  · rw [dif_neg h0]
    by_cases h1 : k.val < 128
    · rw [dif_pos h1]
      exact concatenate_apply_piece 1 _ _ (ix2 e k) 1 (by show (1 : Nat) < 4; omega) S800000x64 _ rfl rfl 64 rfl
        (ix2 e ⟨k.val - 64, by omega⟩) (fun b hb => match b with | ⟨0, _⟩ => rfl | ⟨1, _⟩ => absurd rfl hb)
        (by show 64 + (k.val - 64) = k.val; omega)
    · rw [dif_neg h1]
      by_cases h2 : k.val < 192
      · rw [dif_pos h2]
        refine (concatenate_apply_piece 1 _ _ (ix2 e k) 2 (by show (2 : Nat) < 4; omega) S800000x64
          (val_main_v65 (F := Ideal) x0 x1 x2 x3 x4 x9) rfl rfl 128 rfl
          (ix2 e ⟨k.val - 128, by omega⟩) (fun b hb => match b with | ⟨0, _⟩ => rfl | ⟨1, _⟩ => absurd rfl hb)
          (by show 128 + (k.val - 128) = k.val; omega)).trans ?_
        rfl
      · rw [dif_neg h2]
        refine (concatenate_apply_piece 1 _ _ (ix2 e k) 3 (by show (3 : Nat) < 4; omega) S800000x64
          (val_main_v67 (F := Ideal) x0 x1 x2 x3 x4 x9) rfl rfl 192 rfl
          (ix2 e ⟨k.val - 192, by have := k.isLt; omega⟩)
          (fun b hb => match b with | ⟨0, _⟩ => rfl | ⟨1, _⟩ => absurd rfl hb)
          (by show 192 + (k.val - 192) = k.val; omega)).trans ?_
        rfl

/-- The reference's hidden unit j of edge e: the first layer's sum over the 256 features plus the bias, cut off
    below at zero. -/
theorem hidden_at (e : Fin 800000) (j : Fin 64) :
    val_main_v73 (F := Ideal) x0 x1 x2 x3 x4 x5 x6 x9 (ix2 e j)
      = Cert.EdgeMlp.hidden256
          (fun c => val_main_v57 (F := Ideal) x0 x1 x2 x3 x4 x9 (ix2 e c))
          (fun c => val_main_v64 (F := Ideal) x0 x1 x2 x3 x4 x9 (ix2 e c))
          (fun k j => x5 (ix2 k j)) (fun j => x6 (ix1 j)) j := by
  unfold Cert.EdgeMlp.hidden256
  rw [val_main_v73_apply, val_main_v72_apply, val_main_v69_apply, val_main_v71_apply, val_main_v70_apply,
    val_main_call2_v0_apply, val_main_call2_cst_apply, Ideal.maximumf_def, Ideal.addf_def, Ideal.ofBits_def,
    Ideal.ofBits_zero_f32]
  refine congrArg₂ max (congrArg₂ (· + ·) (Finset.sum_congr rfl fun k _ => ?_) (congrArg x6 ?_)) rfl
  · rw [lidx69, ridx69, feat_at]
  · exact funext fun a => Fin.ext (by match a with | ⟨0, _⟩ => rfl)

/-- The reference's second result (the logits) at edge `e`. -/
theorem logit_at (e : Fin 800000) :
    val_main_v78 (F := Ideal) x0 x1 x2 x3 x4 x5 x6 x7 x8 x9 (ix1 e) = logitOf x0 x1 x2 x3 x4 x5 x6 x7 x8 x9 e := by
  unfold logitOf Cert.EdgeMlp.logit
  rw [val_main_v78_apply, idx78, val_main_v77_apply, val_main_v74_apply, val_main_v76_apply, val_main_v75_apply,
    Ideal.addf_def]
  refine congrArg₂ (· + ·) (Finset.sum_congr rfl fun k _ => ?_) (congrArg x8 ?_)
  · rw [lidx74, ridx74, hidden_at]
  · exact funext fun a => Fin.ext (by match a with | ⟨0, _⟩ => rfl)

/-- The reference's third result (the probabilities) at edge `e`. -/
theorem prob_at (e : Fin 800000) :
    val_main_v84 (F := Ideal) x0 x1 x2 x3 x4 x5 x6 x7 x8 x9 (ix1 e)
      = Cert.EdgeMlp.prob (logitOf x0 x1 x2 x3 x4 x5 x6 x7 x8 x9 e) := by
  unfold Cert.EdgeMlp.prob
  rw [val_main_v84_apply, val_main_v83_apply, val_main_v82_apply, val_main_v81_apply, val_main_v80_apply,
    val_main_v79_apply, val_main_cst_11_apply, val_main_cst_12_apply, logit_at, Ideal.hostDivf_def, Ideal.addf_def,
    Ideal.hostUnary_exp_def, Ideal.hostNegf_def, Ideal.negf_def, Ideal.ofBits_def, Ideal.ofBits_one_f32]

end Cert.RefAt

end
-- ==== Proof.Tiles.lean ====
/-
  The geometry of the kernel's two result windows: point `t` of the 42 writes columns `[19200 t, 19200 t + 19200)` of
  the one row of its `[1, 806400]` array, so the 42 blocks tile the array; and where a block's element sits in it.
-/
import proofs.«429669_j61100204753370_3_alg».proof.Proof.Gen.KernelIdeal.Frame
import Idealize.ShloMosaic.Lib.Pipeline.Value
import Idealize.ShloMosaic.Lib.ValueIdx

set_option maxRecDepth 16384

noncomputable section

namespace Cert.Tiles

open Cert.KernelIdeal Cert.KernelIdeal.Gen Idealize.ShloMosaic Idealize.ShloMosaic.TcCoe Idealize.SL.Sem
open Idealize.ShloMosaic.ValueIdx

/-- The logits window's block index at point `t` is `(0, t)`, decided over the 42 points. -/
theorem idx9 : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)

/-- The probabilities window's block index at point `t` is `(0, t)`, decided over the 42 points. -/
theorem idx10 : ∀ t : Fin cfg0.N, win0_10.index t (0 : Fin 2) = 0 ∧ win0_10.index t (1 : Fin 2) = t.val :=
  (by decide +kernel : ∀ t : Fin grid0.N, win0_10.index t (0 : Fin 2) = 0 ∧ win0_10.index t (1 : Fin 2) = t.val)

/-- Element `y` of point `t`'s logits block sits in row 0, column `19200 t + y₁` of the array. -/
theorem emb9 (t : Fin cfg0.N) (y : S1x19200.Idx) (i : S1x806400.Idx)
    (h0 : (i 0).val = 0) (h1 : (i 1).val = t.val * 19200 + (y 1).val) :
    ((cfg0.win 9).blk t).view.emb y = i := by
  obtain ⟨e0, e1⟩ := idx9 t
  funext a
  apply Fin.ext
  -- on each axis a block's coordinate is the block index times the block's size plus the coordinate inside the block
  match a with
  | ⟨0, _⟩ =>
    show win0_9.index t (0 : Fin 2) * 1 + 1 * (y 0).val = (i 0).val
    have hy : (y 0).val < 1 := (y 0).isLt
    rw [e0, h0]; omega
  | ⟨1, _⟩ =>
    show win0_9.index t (1 : Fin 2) * 19200 + 1 * (y 1).val = (i 1).val
    rw [e1, h1]; omega

/-- The same for the probabilities block. -/
theorem emb10 (t : Fin cfg0.N) (y : S1x19200.Idx) (i : S1x806400.Idx)
    (h0 : (i 0).val = 0) (h1 : (i 1).val = t.val * 19200 + (y 1).val) :
    ((cfg0.win 10).blk t).view.emb y = i := by
  obtain ⟨e0, e1⟩ := idx10 t
  funext a
  apply Fin.ext
  -- on each axis a block's coordinate is the block index times the block's size plus the coordinate inside the block
  match a with
  | ⟨0, _⟩ =>
    show win0_10.index t (0 : Fin 2) * 1 + 1 * (y 0).val = (i 0).val
    have hy : (y 0).val < 1 := (y 0).isLt
    rw [e0, h0]; omega
  | ⟨1, _⟩ =>
    show win0_10.index t (1 : Fin 2) * 19200 + 1 * (y 1).val = (i 1).val
    rw [e1, h1]; omega

/-- Every index of the logits array is in some point's block. -/
theorem cover9 (i : S1x806400.Idx) :
    ∃ t : Fin cfg0.N, (cfg0.win 9).flush t = true ∧ i ∈ ((cfg0.win 9).blk t).view.set := by
  have hi0 : (i 0).val < 1 := (i 0).isLt
  have hi1 : (i 1).val < 806400 := (i 1).isLt
  have hN : cfg0.N = 42 := N_0
  -- the point whose block holds column `i₁` is `i₁ / 19200`
  obtain ⟨t, ht⟩ : ∃ t : Fin cfg0.N, t.val = (i 1).val / 19200 := ⟨⟨(i 1).val / 19200, by rw [hN]; omega⟩, rfl⟩
  obtain ⟨e0, e1⟩ := idx9 t
  refine ⟨t, flush0_9 t, ?_⟩
  show i ∈ ((View.whole main_v65_0).slice (win0_9.rect t)).set
  rw [View.set_slice_whole, Rect.mem_set_unit]
  intro a
  match a with
  | ⟨0, _⟩ =>
    show win0_9.index t (0 : Fin 2) * 1 ≤ (i 0).val ∧ (i 0).val < win0_9.index t (0 : Fin 2) * 1 + 1
    rw [e0]; omega
  | ⟨1, _⟩ =>
    show win0_9.index t (1 : Fin 2) * 19200 ≤ (i 1).val ∧ (i 1).val < win0_9.index t (1 : Fin 2) * 19200 + 19200
    rw [e1, ht]; omega

/-- Every index of the probabilities array is in some point's block. -/
theorem cover10 (i : S1x806400.Idx) :
    ∃ t : Fin cfg0.N, (cfg0.win 10).flush t = true ∧ i ∈ ((cfg0.win 10).blk t).view.set := by
  have hi0 : (i 0).val < 1 := (i 0).isLt
  have hi1 : (i 1).val < 806400 := (i 1).isLt
  have hN : cfg0.N = 42 := N_0
  -- the point whose block holds column `i₁` is `i₁ / 19200`
  obtain ⟨t, ht⟩ : ∃ t : Fin cfg0.N, t.val = (i 1).val / 19200 := ⟨⟨(i 1).val / 19200, by rw [hN]; omega⟩, rfl⟩
  obtain ⟨e0, e1⟩ := idx10 t
  refine ⟨t, flush0_10 t, ?_⟩
  show i ∈ ((View.whole main_v65_1).slice (win0_10.rect t)).set
  rw [View.set_slice_whole, Rect.mem_set_unit]
  intro a
  match a with
  | ⟨0, _⟩ =>
    show win0_10.index t (0 : Fin 2) * 1 ≤ (i 0).val ∧ (i 0).val < win0_10.index t (0 : Fin 2) * 1 + 1
    rw [e0]; omega
  | ⟨1, _⟩ =>
    show win0_10.index t (1 : Fin 2) * 19200 ≤ (i 1).val ∧ (i 1).val < win0_10.index t (1 : Fin 2) * 19200 + 19200
    rw [e1, ht]; omega

end Cert.Tiles

end
-- ==== Proof.Tail.lean ====
/-
  The host operations after the pallas_call, read: the program's second and third results are the first 800000
  entries of the one row of the two padded result arrays, and its first result, which the tail does not touch, is what
  the host operations before the call left in it.
-/
import proofs.«429669_j61100204753370_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Tail

open Cert.KernelIdeal Cert.KernelIdeal.Gen Cert.KernelIdeal.Facts₀ Cert.KernelIdeal.Facts
open Idealize.ShloMosaic Idealize.ShloMosaic.TcCoe Idealize.SL.Sem Idealize.ShloMosaic.StableHlo
open Idealize.ShloMosaic.ValueIdx
open Idealize.ShloMosaic.Pipeline (Dat)

variable {F : FTy → Type} [FloatOps F]
variable (m : (ℓ : Loc nD τ sig) → Buf (Elt F) ℓ)

/-- The whole logits result: the padded logits array after the region, cut to its first 800000 columns and
    read as a vector. -/
theorem logits_whole (c : Dev nD) :
    (Pipeline.afterTail₀ cfgs (dats m) 0 (V0 m) [hostOps1] c main_v67 : Vec F S800000 .f32)
      = shapeCast S800000
          (extractStridedSlice S1x800000 ![0, 0] ((dats m 0 c).arrAt 9 cfg0.N : Vec F S1x806400 .f32)
            Gen.slices_S1x806400_S1x800000_0_0)
          Gen.shapeCasts_S1x800000_S800000 := by
  unfold Pipeline.afterTail₀
  show StableHlo.after hostOps1 _ (Proc.devRef .tc main_v67) = _
  after_results
  -- the region leaves window 9's array at what its write-backs made of it
  have hA : Pipeline.withArrays (cfgs 0).spec c (V0 m c) (fun w => (dats m 0 c).arrAt w (cfgs 0).N)
      (Proc.devRef .tc main_v65_0) = (dats m 0 c).arrAt 9 cfg0.N :=
    Pipeline.withArrays_arr spec0 launch0.win.arr_inj c _ _ 9
  rw [hA]
  rfl

/-- The whole probabilities result: the padded probabilities array after the region, cut to its first 800000 columns and
    read as a vector. -/
theorem probs_whole (c : Dev nD) :
    (Pipeline.afterTail₀ cfgs (dats m) 0 (V0 m) [hostOps1] c main_v69 : Vec F S800000 .f32)
      = shapeCast S800000
          (extractStridedSlice S1x800000 ![0, 0] ((dats m 0 c).arrAt 10 cfg0.N : Vec F S1x806400 .f32)
            Gen.slices_S1x806400_S1x800000_0_0)
          Gen.shapeCasts_S1x800000_S800000 := by
  unfold Pipeline.afterTail₀
  show StableHlo.after hostOps1 _ (Proc.devRef .tc main_v69) = _
  after_results
  -- the region leaves window 10's array at what its write-backs made of it
  have hA : Pipeline.withArrays (cfgs 0).spec c (V0 m c) (fun w => (dats m 0 c).arrAt w (cfgs 0).N)
      (Proc.devRef .tc main_v65_1) = (dats m 0 c).arrAt 10 cfg0.N :=
    Pipeline.withArrays_arr spec0 launch0.win.arr_inj c _ _ 10
  rw [hA]
  rfl

/-- The logits result at edge `e`: entry `(0, e)` of the padded logits array after the region. -/
theorem logits_at (c : Dev nD) (e : Fin 800000) (e' : Fin 806400) (he : e'.val = e.val) :
    (Pipeline.afterTail₀ cfgs (dats m) 0 (V0 m) [hostOps1] c main_v67 : Vec F S800000 .f32) (ix1 e)
      = ((dats m 0 c).arrAt 9 cfg0.N : Vec F S1x806400 .f32) (ix2 (0 : Fin 1) e') := by
  refine (congrFun (logits_whole m c) (ix1 e)).trans ?_
  -- the reshape of the one row reads entry `(0, e)`; the cut starts at column 0, so that is entry `(0, e)` of the array
  refine (shapeCast_1a_a_apply _ Gen.shapeCasts_S1x800000_S800000 e).trans ?_
  exact slice2_axis1_apply 0 _ Gen.slices_S1x806400_S1x800000_0_0 (0 : Fin 1) e e' (by omega)

/-- The probabilities result at edge `e`: entry `(0, e)` of the padded probabilities array after the region. -/
theorem probs_at (c : Dev nD) (e : Fin 800000) (e' : Fin 806400) (he : e'.val = e.val) :
    (Pipeline.afterTail₀ cfgs (dats m) 0 (V0 m) [hostOps1] c main_v69 : Vec F S800000 .f32) (ix1 e)
      = ((dats m 0 c).arrAt 10 cfg0.N : Vec F S1x806400 .f32) (ix2 (0 : Fin 1) e') := by
  refine (congrFun (probs_whole m c) (ix1 e)).trans ?_
  -- the reshape of the one row reads entry `(0, e)`; the cut starts at column 0, so that is entry `(0, e)` of the array
  refine (shapeCast_1a_a_apply _ Gen.shapeCasts_S1x800000_S800000 e).trans ?_
  exact slice2_axis1_apply 0 _ Gen.slices_S1x806400_S1x800000_0_0 (0 : Fin 1) e e' (by omega)

/-- The embeddings result is untouched by the region and by the tail. -/
theorem embeddings (c : Dev nD) :
    Pipeline.afterTail₀ cfgs (dats m) 0 (V0 m) [hostOps1] c main_v46 = V m c main_v46 := by
  unfold Pipeline.afterTail₀
  -- none of the tail's four operations writes this buffer, and it is no window's array
  rw [StableHlo.after_of_forall_not_mem (b := Proc.devRef .tc main_v46) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_v46 (by exact (by decide : ∀ w, Pipeline.arrRef spec0 w ≠ main_v46))]

end Cert.Tail

end
-- ==== Proof.KernelRun.lean ====
/-
  The kernel program's run, read: after it, the three result buffers hold the reference's three stages (node
  embeddings, edge logits, edge probabilities) at the kernel's own arguments.

  Each of the 42 grid points writes one block of 19200 logits and 19200 probabilities; point `t`'s block holds, at
  position `r`, the edge MLP of row `19200 t + r` of the two padded gathered-feature arrays. The blocks tile the
  padded `[1, 806400]` arrays, so each array ends as ONE function of its row index (`rowLogit`, `rowProb`). The host
  tail keeps the first 800000 entries; for such a row the padded arrays' rows are the reference's gathered rows (the
  precondition keeps the take's fill from applying), the four band sums are the reference's one sum over 256 features,
  and the logit is the reference's.
-/
import proofs.«429669_j61100204753370_3_alg».proof.Proof.HostSide
import proofs.«429669_j61100204753370_3_alg».proof.Proof.BlockAt
import proofs.«429669_j61100204753370_3_alg».proof.Proof.RefAt
import proofs.«429669_j61100204753370_3_alg».proof.Proof.Tiles
import proofs.«429669_j61100204753370_3_alg».proof.Proof.Tail
import Idealize.ShloMosaic.Lib.Pipeline.Value
import Idealize.ShloMosaic.Lib.Tactic

set_option maxRecDepth 16384

noncomputable section

namespace Cert.KernelRun

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)
open Cert.HostSide

variable [Cert.Pre_finite_inputs.Facts]
variable (m : (ℓ : Loc nD τ sig) → Buf (Elt Ideal) ℓ) (ρ : Dev nD → PrngReg)

/-! ## The padded result arrays as functions of the row -/

/-- The edge MLP's logit of row `e` of the padded gathered-feature arrays. -/
def rowLogit (c : Dev nD) (e : Fin 806400) : EReal :=
  Cert.EdgeMlp.logit
    (fun j => Cert.EdgeMlp.hidden4 (fun k => hsArr m c (ix2 e k)) (fun k => hdArr m c (ix2 e k))
      (fun k j => wA m c (ix2 k j)) (fun k j => wB m c (ix2 k j)) (fun k j => wC m c (ix2 k j)) (fun k j => wD m c (ix2 k j))
      (fun j => b1Arr m c (ix2 (0 : Fin 1) j)) j)
    (fun j => w2Arr m c (ix2 j (0 : Fin 1))) (b2Arr m c (ix2 (0 : Fin 1) (0 : Fin 1)))

/-- The padded logits array. -/
def logitsArr (c : Dev nD) : FVec Ideal S1x806400 .f32 := fun i => rowLogit m c ⟨(i 1).val, idx2_lt1 i⟩

/-- The padded probabilities array. -/
def probsArr (c : Dev nD) : FVec Ideal S1x806400 .f32 := fun i => Cert.EdgeMlp.prob (rowLogit m c ⟨(i 1).val, idx2_lt1 i⟩)

/-! ## One grid point's blocks -/

theorem hN : cfg0.N = 42 := N_0

/-- The printed index maps over the grid: the two feature windows and the two result windows move with the point,
    the weight and bias windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = t.val
    ∧ win0_10.index t (0 : Fin 2) = 0 ∧ win0_10.index t (1 : Fin 2) = t.val :=
  (by decide +kernel : ∀ t : Fin grid0.N, _)

/-- Row `r` of point `t`'s block of the source features is row `19200 t + r` of the padded array. -/
theorem hs_block (c : Dev nD) (t : Fin cfg0.N) (r : Fin 19200) (k : Fin 64) (e : Fin 806400) (he : e.val = t.val * 19200 + r.val) :
    (iblk m c 0 t : Vec Ideal S19200x64 .f32) (ix2 r k) = hsArr m c (ix2 e k) := by
  obtain ⟨i00, i01, -⟩ := idx_facts t
  unfold iblk
  rw [View.read_apply]
  show V m c main_v61 _ = V m c main_v61 _
  congr 1
  funext a
  apply Fin.ext
  match a with
  | ⟨0, _⟩ => show win0_0.index t (0 : Fin 2) * 19200 + 1 * r.val = e.val; rw [i00, he]; omega
  | ⟨1, _⟩ => show win0_0.index t (1 : Fin 2) * 64 + 1 * k.val = k.val; rw [i01]; omega

/-- The same for the destination features. -/
theorem hd_block (c : Dev nD) (t : Fin cfg0.N) (r : Fin 19200) (k : Fin 64) (e : Fin 806400) (he : e.val = t.val * 19200 + r.val) :
    (iblk m c 1 t : Vec Ideal S19200x64 .f32) (ix2 r k) = hdArr m c (ix2 e k) := by
  obtain ⟨-, -, i10, i11, -⟩ := idx_facts t
  unfold iblk
  rw [View.read_apply]
  show V m c main_v62 _ = V m c main_v62 _
  congr 1
  funext a
  apply Fin.ext
  match a with
  | ⟨0, _⟩ => show win0_1.index t (0 : Fin 2) * 19200 + 1 * r.val = e.val; rw [i10, he]; omega
  | ⟨1, _⟩ => show win0_1.index t (1 : Fin 2) * 64 + 1 * k.val = k.val; rw [i11]; omega

/-- The first weight window's block is its whole array, at every point. -/
theorem wA_block (c : Dev nD) (t : Fin cfg0.N) (p : Fin 64) (q : Fin 64) :
    (iblk m c 2 t : Vec Ideal S64x64 .bf16) (ix2 p q) = wA m c (ix2 p q) := by
  have hf := idx_facts t
  unfold iblk
  rw [View.read_apply]
  show V m c main_v54 _ = V m c main_v54 _
  congr 1
  funext a
  apply Fin.ext
  match a with
  | ⟨0, _⟩ => show win0_2.index t (0 : Fin 2) * 64 + 1 * p.val = p.val; rw [hf.2.2.2.2.1]; omega
  | ⟨1, _⟩ => show win0_2.index t (1 : Fin 2) * 64 + 1 * q.val = q.val; rw [hf.2.2.2.2.2.1]; omega

/-- The second weight window's block is its whole array. -/
theorem wB_block (c : Dev nD) (t : Fin cfg0.N) (p : Fin 64) (q : Fin 64) :
    (iblk m c 3 t : Vec Ideal S64x64 .bf16) (ix2 p q) = wB m c (ix2 p q) := by
  have hf := idx_facts t
  unfold iblk
  rw [View.read_apply]
  show V m c main_v56 _ = V m c main_v56 _
  congr 1
  funext a
  apply Fin.ext
  match a with
  | ⟨0, _⟩ => show win0_3.index t (0 : Fin 2) * 64 + 1 * p.val = p.val; rw [hf.2.2.2.2.2.2.1]; omega
  | ⟨1, _⟩ => show win0_3.index t (1 : Fin 2) * 64 + 1 * q.val = q.val; rw [hf.2.2.2.2.2.2.2.1]; omega

/-- The third weight window's block is its whole array. -/
theorem wC_block (c : Dev nD) (t : Fin cfg0.N) (p : Fin 64) (q : Fin 64) :
    (iblk m c 4 t : Vec Ideal S64x64 .bf16) (ix2 p q) = wC m c (ix2 p q) := by
  have hf := idx_facts t
  unfold iblk
  rw [View.read_apply]
  show V m c main_v58 _ = V m c main_v58 _
  congr 1
  funext a
  apply Fin.ext
  match a with
  | ⟨0, _⟩ => show win0_4.index t (0 : Fin 2) * 64 + 1 * p.val = p.val; rw [hf.2.2.2.2.2.2.2.2.1]; omega
  | ⟨1, _⟩ => show win0_4.index t (1 : Fin 2) * 64 + 1 * q.val = q.val; rw [hf.2.2.2.2.2.2.2.2.2.1]; omega

/-- The fourth weight window's block is its whole array. -/
theorem wD_block (c : Dev nD) (t : Fin cfg0.N) (p : Fin 64) (q : Fin 64) :
    (iblk m c 5 t : Vec Ideal S64x64 .bf16) (ix2 p q) = wD m c (ix2 p q) := by
  have hf := idx_facts t
  unfold iblk
  rw [View.read_apply]
  show V m c main_v60 _ = V m c main_v60 _
  congr 1
  funext a
  apply Fin.ext
  match a with
  | ⟨0, _⟩ => show win0_5.index t (0 : Fin 2) * 64 + 1 * p.val = p.val; rw [hf.2.2.2.2.2.2.2.2.2.2.1]; omega
  | ⟨1, _⟩ => show win0_5.index t (1 : Fin 2) * 64 + 1 * q.val = q.val; rw [hf.2.2.2.2.2.2.2.2.2.2.2.1]; omega

/-- The bias row's block is its whole array. -/
theorem b1_block (c : Dev nD) (t : Fin cfg0.N) (p : Fin 1) (q : Fin 64) :
    (iblk m c 6 t : Vec Ideal S1x64 .f32) (ix2 p q) = b1Arr m c (ix2 p q) := by
  have hf := idx_facts t
  unfold iblk
  rw [View.read_apply]
  show V m c main_v63 _ = V m c main_v63 _
  congr 1
  funext a
  apply Fin.ext
  match a with
  | ⟨0, _⟩ => show win0_6.index t (0 : Fin 2) * 1 + 1 * p.val = p.val; rw [hf.2.2.2.2.2.2.2.2.2.2.2.2.1]; omega
  | ⟨1, _⟩ => show win0_6.index t (1 : Fin 2) * 64 + 1 * q.val = q.val; rw [hf.2.2.2.2.2.2.2.2.2.2.2.2.2.1]; omega

/-- The second layer's column's block is its whole array. -/
theorem w2_block (c : Dev nD) (t : Fin cfg0.N) (p : Fin 64) (q : Fin 1) :
    (iblk m c 7 t : Vec Ideal S64x1 .f32) (ix2 p q) = w2Arr m c (ix2 p q) := by
  have hf := idx_facts t
  unfold iblk
  rw [View.read_apply]
  show V m c main_arg7 _ = V m c main_arg7 _
  congr 1
  funext a
  apply Fin.ext
  match a with
  | ⟨0, _⟩ => show win0_7.index t (0 : Fin 2) * 64 + 1 * p.val = p.val; rw [hf.2.2.2.2.2.2.2.2.2.2.2.2.2.2.1]; omega
  | ⟨1, _⟩ => show win0_7.index t (1 : Fin 2) * 1 + 1 * q.val = q.val; rw [hf.2.2.2.2.2.2.2.2.2.2.2.2.2.2.2.1]; omega

/-- The second bias's block is its whole array. -/
theorem b2_block (c : Dev nD) (t : Fin cfg0.N) (p : Fin 1) (q : Fin 1) :
    (iblk m c 8 t : Vec Ideal S1x1 .f32) (ix2 p q) = b2Arr m c (ix2 p q) := by
  have hf := idx_facts t
  unfold iblk
  rw [View.read_apply]
  show V m c main_v64 _ = V m c main_v64 _
  congr 1
  funext a
  apply Fin.ext
  match a with
  | ⟨0, _⟩ => show win0_8.index t (0 : Fin 2) * 1 + 1 * p.val = p.val; rw [hf.2.2.2.2.2.2.2.2.2.2.2.2.2.2.2.2.1]; omega
  | ⟨1, _⟩ => show win0_8.index t (1 : Fin 2) * 1 + 1 * q.val = q.val; rw [hf.2.2.2.2.2.2.2.2.2.2.2.2.2.2.2.2.2.1]; omega

/-- What point `t` leaves at position `r` of its logits block is the row function at row `19200 t + r`. -/
theorem block_logit (c : Dev nD) (t : Fin cfg0.N) (r : Fin 19200) (e : Fin 806400) (he : e.val = t.val * 19200 + r.val) :
    Cert.BlockAt.logitOf (iblk m c 0 t) (iblk m c 1 t) (iblk m c 2 t) (iblk m c 3 t) (iblk m c 4 t) (iblk m c 5 t)
      (iblk m c 6 t) (iblk m c 7 t) (iblk m c 8 t) r = rowLogit m c e := by
  unfold Cert.BlockAt.logitOf rowLogit
  simp only [hs_block m c t r _ e he, hd_block m c t r _ e he, wA_block m c t, wB_block m c t, wC_block m c t,
    wD_block m c t, b1_block m c t, w2_block m c t, b2_block m c t]

/-- WHAT POINT `t` WRITES BACK to the logits array is its block of `logitsArr`. -/
theorem flushed9_eq (c : Dev nD) (t : Fin cfg0.N) :
    (dats m 0 c).flushed 9 t = ((cfg0.win 9).blk t).view.read (Elt Ideal) (logitsArr m c) := by
  show (cfg0.win 9).cut (grid0.coords t) ((dats m 0 c).after 9 t) = _
  rw [after0_9]
  funext y
  show out0_9 (F := Ideal) (iblk m c 0 t) (iblk m c 1 t) (iblk m c 2 t) (iblk m c 3 t) (iblk m c 4 t) (iblk m c 5 t)
      (iblk m c 6 t) (iblk m c 7 t) (iblk m c 8 t) y = logitsArr m c (((cfg0.win 9).blk t).view.emb y)
  obtain ⟨z, r, rfl⟩ : ∃ (z : Fin 1) (r : Fin 19200), y = ix2 z r := ⟨y 0, y 1, eq_ix2 y⟩
  obtain rfl : z = 0 := Subsingleton.elim _ _
  have hlt : t.val * 19200 + r.val < 806400 := by have := t.isLt; have h42 := hN; have := r.isLt; omega
  rw [Cert.Tiles.emb9 t (ix2 (0 : Fin 1) r) (ix2 (0 : Fin 1) (⟨t.val * 19200 + r.val, hlt⟩ : Fin 806400)) rfl rfl]
  refine (Cert.BlockAt.logit_at (iblk m c 0 t) (iblk m c 1 t) (iblk m c 2 t) (iblk m c 3 t) (iblk m c 4 t) (iblk m c 5 t)
    (iblk m c 6 t) (iblk m c 7 t) (iblk m c 8 t) r).trans ?_
  exact block_logit m c t r _ rfl

/-- WHAT POINT `t` WRITES BACK to the probabilities array is its block of `probsArr`. -/
theorem flushed10_eq (c : Dev nD) (t : Fin cfg0.N) :
    (dats m 0 c).flushed 10 t = ((cfg0.win 10).blk t).view.read (Elt Ideal) (probsArr m c) := by
  show (cfg0.win 10).cut (grid0.coords t) ((dats m 0 c).after 10 t) = _
  rw [after0_10]
  funext y
  show out0_10 (F := Ideal) (iblk m c 0 t) (iblk m c 1 t) (iblk m c 2 t) (iblk m c 3 t) (iblk m c 4 t) (iblk m c 5 t)
      (iblk m c 6 t) (iblk m c 7 t) (iblk m c 8 t) y = probsArr m c (((cfg0.win 10).blk t).view.emb y)
  obtain ⟨z, r, rfl⟩ : ∃ (z : Fin 1) (r : Fin 19200), y = ix2 z r := ⟨y 0, y 1, eq_ix2 y⟩
  obtain rfl : z = 0 := Subsingleton.elim _ _
  have hlt : t.val * 19200 + r.val < 806400 := by have := t.isLt; have h42 := hN; have := r.isLt; omega
  rw [Cert.Tiles.emb10 t (ix2 (0 : Fin 1) r) (ix2 (0 : Fin 1) (⟨t.val * 19200 + r.val, hlt⟩ : Fin 806400)) rfl rfl]
  refine (Cert.BlockAt.prob_at (iblk m c 0 t) (iblk m c 1 t) (iblk m c 2 t) (iblk m c 3 t) (iblk m c 4 t) (iblk m c 5 t)
    (iblk m c 6 t) (iblk m c 7 t) (iblk m c 8 t) r).trans ?_
  exact congrArg Cert.EdgeMlp.prob (block_logit m c t r _ rfl)

/-! ## The arrays after the region -/

/-- The 42 blocks tile the logits array: it ends holding `logitsArr`. -/
theorem final9 (c : Dev nD) : (dats m 0 c).arrAt 9 cfg0.N = logitsArr m c :=
  (dats m 0 c).arrAt_eq_of_cover 9 (logitsArr m c) (fun t _ => flushed9_eq m c t) Cert.Tiles.cover9

/-- The 42 blocks tile the probabilities array: it ends holding `probsArr`. -/
theorem final10 (c : Dev nD) : (dats m 0 c).arrAt 10 cfg0.N = probsArr m c :=
  (dats m 0 c).arrAt_eq_of_cover 10 (probsArr m c) (fun t _ => flushed10_eq m c t) Cert.Tiles.cover10

/-! ## A kept row is the reference's -/

/-- For an edge `e < 800000` the row function is the reference's logit of that edge. -/
theorem rowLogit_eq_ref (hpre : Cert.Pre_KernelIdeal m) (c : Dev nD) (e : Fin 800000) (e' : Fin 806400) (he : e'.val = e.val) :
    rowLogit m c e'
      = Cert.RefAt.logitOf (a0 m c) (a1 m c) (a2 m c) (a3 m c) (a4 m c) (a5 m c) (a6 m c) (a7 m c) (a8 m c) (a9 m c) e := by
  have e0 : (fun k : Fin 64 => hsArr m c (ix2 e' k))
      = fun k => Cert.ReferenceIdeal.ReadP.val_main_v57 (F := Ideal) (a0 m c) (a1 m c) (a2 m c) (a3 m c) (a4 m c) (a9 m c) (ix2 e k) :=
    funext fun k => hs_row m hpre c e k e' he
  have e1 : (fun k : Fin 64 => hdArr m c (ix2 e' k))
      = fun k => Cert.ReferenceIdeal.ReadP.val_main_v64 (F := Ideal) (a0 m c) (a1 m c) (a2 m c) (a3 m c) (a4 m c) (a9 m c) (ix2 e k) :=
    funext fun k => hd_row m hpre c e k e' he
  have eA : (fun k j : Fin 64 => wA m c (ix2 k j)) = Cert.EdgeMlp.band (fun k j => a5 m c (ix2 k j)) 0 (by omega) :=
    funext fun k => funext fun j => wA_apply m c k j
  have eB : (fun k j : Fin 64 => wB m c (ix2 k j)) = Cert.EdgeMlp.band (fun k j => a5 m c (ix2 k j)) 64 (by omega) :=
    funext fun k => funext fun j => wB_apply m c k j
  have eC : (fun k j : Fin 64 => wC m c (ix2 k j)) = Cert.EdgeMlp.band (fun k j => a5 m c (ix2 k j)) 128 (by omega) :=
    funext fun k => funext fun j => wC_apply m c k j
  have eD : (fun k j : Fin 64 => wD m c (ix2 k j)) = Cert.EdgeMlp.band (fun k j => a5 m c (ix2 k j)) 192 (by omega) :=
    funext fun k => funext fun j => wD_apply m c k j
  have eb1 : (fun j : Fin 64 => b1Arr m c (ix2 (0 : Fin 1) j)) = fun j => a6 m c (ix1 j) := funext fun j => b1_apply m c j
  have ew2 : (fun j : Fin 64 => w2Arr m c (ix2 j (0 : Fin 1))) = fun j => a7 m c (ix2 j (0 : Fin 1)) := funext fun j => w2_apply m c j
  have eb2 : b2Arr m c (ix2 (0 : Fin 1) (0 : Fin 1)) = a8 m c (ix1 (0 : Fin 1)) := b2_apply m c
  unfold rowLogit Cert.RefAt.logitOf
  rw [e0, e1, eA, eB, eC, eD, eb1, ew2, eb2]
  exact congrArg (fun h => Cert.EdgeMlp.logit h _ _) (funext fun j => (Cert.EdgeMlp.hidden256_eq_hidden4 _ _ _ _ j).symm)

/-! ## The three results -/

/-- The embeddings result. -/
theorem embeddings_result (c : Dev nD) :
    Pipeline.afterTail₀ cfgs (dats m) 0 (V0 m) [hostOps1] c main_v46
      = Cert.ReferenceIdeal.ReadP.val_main_v46 (F := Ideal) (a0 m c) (a1 m c) (a2 m c) (a3 m c) (a4 m c) (a9 m c) :=
  (Cert.Tail.embeddings m c).trans (V_H m c)

/-- The logits result is the reference's second result at the kernel's arguments. -/
theorem logits_result (hpre : Cert.Pre_KernelIdeal m) (c : Dev nD) :
    (Pipeline.afterTail₀ cfgs (dats m) 0 (V0 m) [hostOps1] c main_v67 : Vec Ideal S800000 .f32)
      = Cert.ReferenceIdeal.ReadP.val_main_v78 (F := Ideal) (a0 m c) (a1 m c) (a2 m c) (a3 m c) (a4 m c) (a5 m c) (a6 m c)
          (a7 m c) (a8 m c) (a9 m c) := by
  funext i
  obtain ⟨e, rfl⟩ : ∃ e : Fin 800000, i = ix1 e := ⟨i 0, eq_ix1 i⟩
  have hlt : e.val < 806400 := by have := e.isLt; omega
  rw [Cert.Tail.logits_at m c e ⟨e.val, hlt⟩ rfl, final9, Cert.RefAt.logit_at]
  exact rowLogit_eq_ref m hpre c e _ rfl

/-- The probabilities result is the reference's third result at the kernel's arguments. -/
theorem probs_result (hpre : Cert.Pre_KernelIdeal m) (c : Dev nD) :
    (Pipeline.afterTail₀ cfgs (dats m) 0 (V0 m) [hostOps1] c main_v69 : Vec Ideal S800000 .f32)
      = Cert.ReferenceIdeal.ReadP.val_main_v84 (F := Ideal) (a0 m c) (a1 m c) (a2 m c) (a3 m c) (a4 m c) (a5 m c) (a6 m c)
          (a7 m c) (a8 m c) (a9 m c) := by
  funext i
  obtain ⟨e, rfl⟩ : ∃ e : Fin 800000, i = ix1 e := ⟨i 0, eq_ix1 i⟩
  have hlt : e.val < 806400 := by have := e.isLt; omega
  rw [Cert.Tail.probs_at m c e ⟨e.val, hlt⟩ rfl, final10, Cert.RefAt.prob_at]
  exact congrArg Cert.EdgeMlp.prob (rowLogit_eq_ref m hpre c e _ rfl)

/-! ## The run, read -/

/-- Under the precondition, every weakly fair execution of the kernel program ends with its three results at the
    reference's three stages of the arguments, the arguments unchanged. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v46)
        = Cert.ReferenceIdeal.ReadP.val_main_v46 (F := Ideal) (a0 m c) (a1 m c) (a2 m c) (a3 m c) (a4 m c) (a9 m c)
      ∧ r.2.mem ((c.tc : Thread nD τ).loc main_v67)
        = Cert.ReferenceIdeal.ReadP.val_main_v78 (F := Ideal) (a0 m c) (a1 m c) (a2 m c) (a3 m c) (a4 m c) (a5 m c) (a6 m c) (a7 m c) (a8 m c) (a9 m c)
      ∧ r.2.mem ((c.tc : Thread nD τ).loc main_v69)
        = Cert.ReferenceIdeal.ReadP.val_main_v84 (F := Ideal) (a0 m c) (a1 m c) (a2 m c) (a3 m c) (a4 m c) (a5 m c) (a6 m c) (a7 m c) (a8 m c) (a9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v46 (Pipeline.mem_restRefs_of main_v46 (by decide) (by decide))).trans (embeddings_result m c),
      ((h c).2 main_v67 (Pipeline.mem_restRefs_of main_v67 (by decide) (by decide))).trans (logits_result m hpre c),
      ((h c).2 main_v69 (Pipeline.mem_restRefs_of main_v69 (by decide) (by decide))).trans (probs_result m hpre c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelRun

end
-- ==== Proof.lean ====
/-
  The edge-scoring kernel of a two-layer message-passing encoder against its jnp reference, over the extended reals.

  Both programs compute the node embeddings `H` by the same host operations. The reference then gathers `H` at every
  edge's source and destination ids, concatenates the two rows with their product and absolute difference into 256
  features, and applies a 256→64→1 MLP with a ReLU and a sigmoid. The kernel program gathers with `jnp.take`, pads the
  800000 edges to 806400, and runs the MLP in a pallas_call over 42 blocks of 19200 edges, taking the first layer as four
  64-wide products added left to right; the padding rows are cut off afterwards.

  The two differ only where an edge id is not a node id: there `jnp.take` fills the row with a NaN pattern while the
  reference's indexing clamps. The precondition therefore also says that every entry of the edge list lies in
  `[0, 50000)`. Under it the take is the plain gather; a sum over 256 features is the sum of its four bands, which on
  the extended reals needs only commutativity and associativity of addition; the kernel's `logistic` and the reference's
  `1 / (1 + exp (-x))` are one function. So the three results agree entry by entry, on every input the precondition
  admits, finite or not beyond what it says.

  The frames of the two kernel programs are the generated ones; the reference's is its generated run (a copy whose reading of the results is left to the kernel's check) with the
  results dropped; nothing was rewritten by the ideal pass, so `preserves` is trivial.
-/
import proofs.«429669_j61100204753370_3_alg».proof.Defs
import proofs.«429669_j61100204753370_3_alg».proof.Proof.Gen.Kernel
import proofs.«429669_j61100204753370_3_alg».proof.Proof.Gen.Kernel.Skeleton
import proofs.«429669_j61100204753370_3_alg».proof.Proof.Gen.Kernel.Launch
import proofs.«429669_j61100204753370_3_alg».proof.Proof.Gen.Kernel.Points
import proofs.«429669_j61100204753370_3_alg».proof.Proof.Gen.Kernel.Frame
import proofs.«429669_j61100204753370_3_alg».proof.Proof.Gen.KernelIdeal
import proofs.«429669_j61100204753370_3_alg».proof.Proof.Gen.KernelIdeal.Skeleton
import proofs.«429669_j61100204753370_3_alg».proof.Proof.Gen.KernelIdeal.Launch
import proofs.«429669_j61100204753370_3_alg».proof.Proof.Gen.KernelIdeal.Points
import proofs.«429669_j61100204753370_3_alg».proof.Proof.Gen.KernelIdeal.Frame
import proofs.«429669_j61100204753370_3_alg».proof.Proof.Gen.ReferenceIdeal
import proofs.«429669_j61100204753370_3_alg».proof.Proof.RefRun
import proofs.«429669_j61100204753370_3_alg».proof.Proof.RefRead
import proofs.«429669_j61100204753370_3_alg».proof.Proof.Gen.Pre_finite_inputs
import proofs.«429669_j61100204753370_3_alg».proof.Proof.KernelRun
import Idealize.ShloMosaic.Adequacy
import Idealize.ShloMosaic.Init

noncomputable section

namespace Cert.Proof

open Idealize.ShloMosaic Idealize.SL.Sem

/-- The two idealized programs, run from memories that agree on the arguments, end with equal results: the kernel
    program's run is read as the reference's three stages at its own arguments, and the reference's run is those stages
    at arguments that are the same arrays. -/
theorem algebraic : Cert.algebraic_KernelIdeal_ReferenceIdeal := by
  intro m ρ m' ρ' hpre hagree
  refine ⟨_, _, _, Cert.KernelRun.run m ρ hpre, ?_⟩
  refine (θ_run Cert.ReferenceIdeal.defs _ _).mono (fun _ h c => ?_) (Cert.ReferenceIdeal.ValueP.run (F := Ideal) m' ρ')
  obtain ⟨g0, g1, g2, g3, g4, g5, g6, g7, g8, g9⟩ := hagree c
  refine ⟨(h c).1.trans ?_, (h c).2.1.trans ?_, (h c).2.2.1.trans ?_, (h c).2.2.2⟩
  · rw [Cert.ReferenceIdeal.ReadP.val_main_v46_eq, g0, g1, g2, g3, g4, g9]
  · rw [Cert.ReferenceIdeal.ReadP.val_main_v78_eq, g0, g1, g2, g3, g4, g5, g6, g7, g8, g9]
  · rw [Cert.ReferenceIdeal.ReadP.val_main_v84_eq, g0, g1, g2, g3, g4, g5, g6, g7, g8, g9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.ValueP.run (F := Ideal) m ρ),
  trivial,
  algebraic⟩

end Cert.Proof

end
